-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x8192 : Shape := ⟨2, ![16, 8192]⟩
abbrev S256x256 : Shape := ⟨2, ![256, 256]⟩
abbrev S256 : Shape := ⟨1, ![256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S16x8192x256 .f32) (main_arg1 : IVec S16x8192 32) (main_arg2 : FVec F S256x256 .f32) (main_arg3 : FVec F S256 .f32) (main_arg4 : FVec F S256 .f32) (main_arg5 : FVec F S256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S16x8192x256 : Shape := ⟨3, ![16, 8192, 256]⟩
abbrev S16x8192 : Shape := ⟨2, ![16, 8192]⟩
abbrev S256x256 : Shape := ⟨2, ![256, 256]⟩
abbrev S256 : Shape := ⟨1, ![256]⟩
abbrev S_ : Shape := ⟨0, ![]⟩
abbrev S16x1 : Shape := ⟨2, ![16, 1]⟩
abbrev S16x8191 : Shape := ⟨2, ![16, 8191]⟩
abbrev S16 : Shape := ⟨1, ![16]⟩
abbrev S131072 : Shape := ⟨1, ![131072]⟩
abbrev S131072x256 : Shape := ⟨2, ![131072, 256]⟩
abbrev S131073x256 : Shape := ⟨2, ![131073, 256]⟩
abbrev S131072x1 : Shape := ⟨2, ![131072, 1]⟩
abbrev S131073 : Shape := ⟨1, ![131073]⟩
abbrev S8x256x256 : Shape := ⟨3, ![8, 256, 256]⟩
abbrev S8x256 : Shape := ⟨2, ![8, 256]⟩
abbrev S8x256x1 : Shape := ⟨3, ![8, 256, 1]⟩
abbrev S2048x256 : Shape := ⟨2, ![2048, 256]⟩
abbrev S1x1x256 : Shape := ⟨3, ![1, 1, 256]⟩

abbrev nBuf : Space → Nat
  | .hbm => 51
  | .vmem => 12
  | .smem => 0
  | _ => 0

abbrev bufTy : (tb : Table) → Fin (tcTables nBuf tb) → BufTy
  | .hbm, ⟨0, _⟩ => ⟨S16x8192x256, .f32⟩
  | .hbm, ⟨1, _⟩ => ⟨S16x8192, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S16x8192, .i32⟩
  | .hbm, ⟨8, _⟩ => ⟨S16x8192, .i1⟩
  | .hbm, ⟨9, _⟩ => ⟨S16x8192, .i1⟩
  | .hbm, ⟨10, _⟩ => ⟨S_, .i1⟩
  | .hbm, ⟨11, _⟩ => ⟨S16x1, .i1⟩
  | .hbm, ⟨12, _⟩ => ⟨S16x8191, .i1⟩
  | .hbm, ⟨13, _⟩ => ⟨S16x8192, .i1⟩
  | .hbm, ⟨14, _⟩ => ⟨S16x8192, .i1⟩
  | .hbm, ⟨15, _⟩ => ⟨S16x8192, .i32⟩
  | .hbm, ⟨16, _⟩ => ⟨S_, .i32⟩
  | .hbm, ⟨17, _⟩ => ⟨S_, .i32⟩
  | .hbm, ⟨18, _⟩ => ⟨S16x8192, .i32⟩
  | .hbm, ⟨19, _⟩ => ⟨S_, .i32⟩
  | .hbm, ⟨20, _⟩ => ⟨S16x8192, .i32⟩
  | .hbm, ⟨21, _⟩ => ⟨S16x8192, .i32⟩
  | .hbm, ⟨22, _⟩ => ⟨S16, .i32⟩
  | .hbm, ⟨23, _⟩ => ⟨S16x1, .i32⟩
  | .hbm, ⟨24, _⟩ => ⟨S_, .i32⟩
  | .hbm, ⟨25, _⟩ => ⟨S16x1, .i32⟩
  | .hbm, ⟨26, _⟩ => ⟨S16x1, .i32⟩
  | .hbm, ⟨27, _⟩ => ⟨S16x8192, .i32⟩
  | .hbm, ⟨28, _⟩ => ⟨S16x8192, .i32⟩
  | .hbm, ⟨29, _⟩ => ⟨S_, .i32⟩
  | .hbm, ⟨30, _⟩ => ⟨S_, .i32⟩
  | .hbm, ⟨31, _⟩ => ⟨S16x8192, .i32⟩
  | .hbm, ⟨32, _⟩ => ⟨S16x8192, .i32⟩
  | .hbm, ⟨33, _⟩ => ⟨S131072, .i32⟩
  | .hbm, ⟨34, _⟩ => ⟨S131072x256, .f32⟩
  | .hbm, ⟨35, _⟩ => ⟨S_, .f32⟩
  | .hbm, ⟨36, _⟩ => ⟨S131073x256, .f32⟩
  | .hbm, ⟨37, _⟩ => ⟨S131072x1, .i32⟩
  | .hbm, ⟨38, _⟩ => ⟨S131073x256, .f32⟩
  | .hbm, ⟨39, _⟩ => ⟨S131072x256, .f32⟩
  | .hbm, ⟨40, _⟩ => ⟨S_, .f32⟩
  | .hbm, ⟨41, _⟩ => ⟨S131072, .f32⟩
  | .hbm, ⟨42, _⟩ => ⟨S_, .f32⟩
  | .hbm, ⟨43, _⟩ => ⟨S131073, .f32⟩
  | .hbm, ⟨44, _⟩ => ⟨S131072x1, .i32⟩
  | .hbm, ⟨45, _⟩ => ⟨S131073, .f32⟩
  | .hbm, ⟨46, _⟩ => ⟨S131072, .f32⟩
  | .hbm, ⟨47, _⟩ => ⟨S16x8192x256, .f32⟩
  | .hbm, ⟨48, _⟩ => ⟨S16x8192, .f32⟩
  | .hbm, ⟨49, _⟩ => ⟨S16x8192x256, .f32⟩
  | .hbm, ⟨50, _⟩ => ⟨S16x8192, .f32⟩
  | .local _ .vmem, ⟨0, _⟩ => ⟨S8x256x256, .f32⟩
  | .local _ .vmem, ⟨1, _⟩ => ⟨S8x256x256, .f32⟩
  | .local _ .vmem, ⟨2, _⟩ => ⟨S8x256, .f32⟩
  | .local _ .vmem, ⟨3, _⟩ => ⟨S8x256, .f32⟩
  | .local _ .vmem, ⟨4, _⟩ => ⟨S256x256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S8x256x256, .f32⟩
  | .local _ .vmem, ⟨9, _⟩ => ⟨S8x256x256, .f32⟩
  | .local _ .vmem, ⟨10, _⟩ => ⟨S8x256, .f32⟩
  | .local _ .vmem, ⟨11, _⟩ => ⟨S8x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_call0_c : Ref sig .tc := ⟨.hbm, 16, rfl⟩
abbrev main_call0_call0_v0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S16x8192 : S_.BroadcastsInDim S16x8192 (![] : Fin 0 → Fin S16x8192.rank)
  bcast_S_S16x1 : S_.BroadcastsInDim S16x1 (![] : Fin 0 → Fin S16x1.rank)
  slices_S16x8192_S16x8191_0_0 : S16x8192.Slices ![0, 0] S16x8191
  concatenates_S16x1_S16x8191_S16x8192_d1 : Shape.Concatenates [S16x1, S16x8191] S16x8192 1
  natLt_1_32 : 1 < 32
  bcast_S_S_ : S_.BroadcastsInDim S_ (![] : Fin 0 → Fin S_.rank)
  reduceWindows_S16x8192_S16x8192_w1s1p0_0_w8192s1p8191_0 : S16x8192.ReduceWindows (![1, 8192] : Fin 2 → Nat) ![1, 1] ![0, 8191] ![0, 0] S16x8192
  h_S_ : 0 < S_.numel
  bcast_S16_S16x1_0 : S16.BroadcastsInDim S16x1 (![0] : Fin 1 → Fin S16x1.rank)
  bcast_S16x1_S16x8192_0_1 : S16x1.BroadcastsInDim S16x8192 (![0, 1] : Fin 2 → Fin S16x8192.rank)
  shapeCasts_S16x8192_S131072 : S16x8192.ShapeCasts S131072
  shapeCasts_S16x8192x256_S131072x256 : S16x8192x256.ShapeCasts S131072x256
  bcast_S_S131073x256 : S_.BroadcastsInDim S131073x256 (![] : Fin 0 → Fin S131073x256.rank)
  bcast_S131072_S131072x1_0 : S131072.BroadcastsInDim S131072x1 (![0] : Fin 1 → Fin S131072x1.rank)
  slices_S131073x256_S131072x256_0_0 : S131073x256.Slices ![0, 0] S131072x256
  bcast_S_S131072 : S_.BroadcastsInDim S131072 (![] : Fin 0 → Fin S131072.rank)
  bcast_S_S131073 : S_.BroadcastsInDim S131073 (![] : Fin 0 → Fin S131073.rank)
  slices_S131073_S131072_0 : S131073.Slices ![0] S131072
  shapeCasts_S131072x256_S16x8192x256 : S131072x256.ShapeCasts S16x8192x256
  shapeCasts_S131072_S16x8192 : S131072.ShapeCasts S16x8192
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  shapeCasts_S8x256_S8x256x1 : S8x256.ShapeCasts S8x256x1
  broadcasts_S8x256x1_S8x256x256 : S8x256x1.Broadcasts S8x256x256
  bitsLt_bf16_f32 : FTy.bits .bf16 < FTy.bits .f32
  shapeCasts_S8x256x256_S2048x256 : S8x256x256.ShapeCasts S2048x256
  inb_S256x256_S256x256_0_0 : ∀ a, (![0, 0] : Fin 2 → Nat) a + S256x256.size a ≤ S256x256.size a
  h_S256x256 : 0 < S256x256.numel
  shapeCasts_S2048x256_S8x256x256 : S2048x256.ShapeCasts S8x256x256
  inb_S256_S256_0 : ∀ a, (![0] : Fin 1 → Nat) a + S256.size a ≤ S256.size a
  h_S256 : 0 < S256.numel
  shapeCasts_S256_S1x1x256 : S256.ShapeCasts S1x1x256
  broadcasts_S1x1x256_S8x256x256 : S1x1x256.Broadcasts S8x256x256
  reduces_S8x256x256_S8x256 : S8x256x256.Reduces [2] S8x256
  scatter_S131073x256_S131072x1_S131072x256_1_0_0_1_wf : ScatterDims.WF S131073x256 S131072x1 S131072x256 [1] [0] [0] 1
  scatter_S131073_S131072x1_S131072_n_0_0_1_wf : ScatterDims.WF S131073 S131072x1 S131072 [] [0] [0] 1
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S16x8192x256.size a
  hwx0_0 : ∀ i : grid0.Coords, EltTy.bits .f32 = 32 ∨ (Rect.block (s := S16x8192x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S16x8192.size a
  hwx0_1 : ∀ i : grid0.Coords, EltTy.bits .f32 = 32 ∨ (Rect.block (s := S16x8192) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256x256.size a ≤ S16x8192x256.size a
  hwx0_6 : ∀ i : grid0.Coords, EltTy.bits .f32 = 32 ∨ (Rect.block (s := S16x8192x256) S8x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S16x8192.size a
  hwx0_7 : ∀ i : grid0.Coords, EltTy.bits .f32 = 32 ∨ (Rect.block (s := S16x8192) S8x256.size (cc0_transform_7 i) (hinb0_7 i)).WholeWords (EltTy.packing .f32)

variable [Facts₀]

def scatter_S131073x256_S131072x1_S131072x256_1_0_0_1 : ScatterDims S131073x256 S131072x1 S131072x256 where
  updateWindowDims := [1]
  insertedWindowDims := [0]
  scatterDimsToOperandDims := [0]
  indexVectorDim := 1
  wf := scatter_S131073x256_S131072x1_S131072x256_1_0_0_1_wf
def scatter_S131073_S131072x1_S131072_n_0_0_1 : ScatterDims S131073 S131072x1 S131072 where
  updateWindowDims := []
  insertedWindowDims := [0]
  scatterDimsToOperandDims := [0]
  indexVectorDim := 1
  wf := scatter_S131073_S131072x1_S131072_n_0_0_1_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_v29) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31_0) S8x256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v31_1) S8x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S16x8192 : Shape := ⟨2, ![16, 8192]⟩
abbrev S256x256 : Shape := ⟨2, ![256, 256]⟩
abbrev S256 : Shape := ⟨1, ![256]⟩
abbrev S_ : Shape := ⟨0, ![]⟩
abbrev S16x1 : Shape := ⟨2, ![16, 1]⟩
abbrev S16x8191 : Shape := ⟨2, ![16, 8191]⟩
abbrev S16 : Shape := ⟨1, ![16]⟩
abbrev S131072 : Shape := ⟨1, ![131072]⟩
abbrev S131072x256 : Shape := ⟨2, ![131072, 256]⟩
abbrev S131073x256 : Shape := ⟨2, ![131073, 256]⟩
abbrev S131072x1 : Shape := ⟨2, ![131072, 1]⟩
abbrev S131073 : Shape := ⟨1, ![131073]⟩
abbrev S16x8192x1 : Shape := ⟨3, ![16, 8192, 1]⟩
abbrev S1x1x256 : Shape := ⟨3, ![1, 1, 256]⟩

abbrev nBuf : Space → Nat
  | .hbm => 92
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x8192, .i32⟩
  | .hbm, ⟨2, _⟩ => ⟨S256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S16x8192, .i32⟩
  | .hbm, ⟨8, _⟩ => ⟨S16x8192, .i1⟩
  | .hbm, ⟨9, _⟩ => ⟨S16x8192, .i1⟩
  | .hbm, ⟨10, _⟩ => ⟨S_, .i1⟩
  | .hbm, ⟨11, _⟩ => ⟨S16x1, .i1⟩
  | .hbm, ⟨12, _⟩ => ⟨S16x8191, .i1⟩
  | .hbm, ⟨13, _⟩ => ⟨S16x8192, .i1⟩
  | .hbm, ⟨14, _⟩ => ⟨S16x8192, .i1⟩
  | .hbm, ⟨15, _⟩ => ⟨S16x8192, .i32⟩
  | .hbm, ⟨16, _⟩ => ⟨S_, .i32⟩
  | .hbm, ⟨17, _⟩ => ⟨S_, .i32⟩
  | .hbm, ⟨18, _⟩ => ⟨S16x8192, .i32⟩
  | .hbm, ⟨19, _⟩ => ⟨S_, .i32⟩
  | .hbm, ⟨20, _⟩ => ⟨S16x8192, .i32⟩
  | .hbm, ⟨21, _⟩ => ⟨S16x8192, .i32⟩
  | .hbm, ⟨22, _⟩ => ⟨S16, .i32⟩
  | .hbm, ⟨23, _⟩ => ⟨S16x1, .i32⟩
  | .hbm, ⟨24, _⟩ => ⟨S_, .i32⟩
  | .hbm, ⟨25, _⟩ => ⟨S16x1, .i32⟩
  | .hbm, ⟨26, _⟩ => ⟨S16x1, .i32⟩
  | .hbm, ⟨27, _⟩ => ⟨S16x8192, .i32⟩
  | .hbm, ⟨28, _⟩ => ⟨S16x8192, .i32⟩
  | .hbm, ⟨29, _⟩ => ⟨S_, .i32⟩
  | .hbm, ⟨30, _⟩ => ⟨S_, .i32⟩
  | .hbm, ⟨31, _⟩ => ⟨S16x8192, .i32⟩
  | .hbm, ⟨32, _⟩ => ⟨S16x8192, .i32⟩
  | .hbm, ⟨33, _⟩ => ⟨S131072, .i32⟩
  | .hbm, ⟨34, _⟩ => ⟨S131072x256, .f32⟩
  | .hbm, ⟨35, _⟩ => ⟨S_, .f32⟩
  | .hbm, ⟨36, _⟩ => ⟨S131073x256, .f32⟩
  | .hbm, ⟨37, _⟩ => ⟨S131072x1, .i32⟩
  | .hbm, ⟨38, _⟩ => ⟨S131073x256, .f32⟩
  | .hbm, ⟨39, _⟩ => ⟨S131072x256, .f32⟩
  | .hbm, ⟨40, _⟩ => ⟨S_, .f32⟩
  | .hbm, ⟨41, _⟩ => ⟨S131072, .f32⟩
  | .hbm, ⟨42, _⟩ => ⟨S_, .f32⟩
  | .hbm, ⟨43, _⟩ => ⟨S131073, .f32⟩
  | .hbm, ⟨44, _⟩ => ⟨S131072x1, .i32⟩
  | .hbm, ⟨45, _⟩ => ⟨S131073, .f32⟩
  | .hbm, ⟨46, _⟩ => ⟨S131072, .f32⟩
  | .hbm, ⟨47, _⟩ => ⟨S16x8192x256, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S16x8192, .i1⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192x1, .f32⟩
  | .hbm, ⟨57, _⟩ => ⟨S16x8192x256, .f32⟩
  | .hbm, ⟨58, _⟩ => ⟨S16x8192x256, .f32⟩
  | .hbm, ⟨59, _⟩ => ⟨S16x8192x256, .f32⟩
  | .hbm, ⟨60, _⟩ => ⟨S1x1x256, .f32⟩
  | .hbm, ⟨61, _⟩ => ⟨S16x8192x256, .f32⟩
  | .hbm, ⟨62, _⟩ => ⟨S16x8192x256, .f32⟩
  | .hbm, ⟨63, _⟩ => ⟨S_, .f32⟩
  | .hbm, ⟨64, _⟩ => ⟨S16x8192, .f32⟩
  | .hbm, ⟨65, _⟩ => ⟨S16x8192x1, .f32⟩
  | .hbm, ⟨66, _⟩ => ⟨S_, .f32⟩
  | .hbm, ⟨67, _⟩ => ⟨S16x8192x1, .f32⟩
  | .hbm, ⟨68, _⟩ => ⟨S16x8192x1, .f32⟩
  | .hbm, ⟨69, _⟩ => ⟨S16x8192x256, .f32⟩
  | .hbm, ⟨70, _⟩ => ⟨S16x8192x256, .f32⟩
  | .hbm, ⟨71, _⟩ => ⟨S16x8192x256, .f32⟩
  | .hbm, ⟨72, _⟩ => ⟨S_, .f32⟩
  | .hbm, ⟨73, _⟩ => ⟨S16x8192, .f32⟩
  | .hbm, ⟨74, _⟩ => ⟨S16x8192x1, .f32⟩
  | .hbm, ⟨75, _⟩ => ⟨S_, .f32⟩
  | .hbm, ⟨76, _⟩ => ⟨S16x8192x1, .f32⟩
  | .hbm, ⟨77, _⟩ => ⟨S16x8192x1, .f32⟩
  | .hbm, ⟨78, _⟩ => ⟨S16x8192x256, .f32⟩
  | .hbm, ⟨79, _⟩ => ⟨S16x8192x256, .f32⟩
  | .hbm, ⟨80, _⟩ => ⟨S_, .f32⟩
  | .hbm, ⟨81, _⟩ => ⟨S16x8192x1, .f32⟩
  | .hbm, ⟨82, _⟩ => ⟨S16x8192x1, .f32⟩
  | .hbm, ⟨83, _⟩ => ⟨S16x8192x1, .f32⟩
  | .hbm, ⟨84, _⟩ => ⟨S16x8192x256, .f32⟩
  | .hbm, ⟨85, _⟩ => ⟨S16x8192x256, .f32⟩
  | .hbm, ⟨86, _⟩ => ⟨S1x1x256, .f32⟩
  | .hbm, ⟨87, _⟩ => ⟨S16x8192x256, .f32⟩
  | .hbm, ⟨88, _⟩ => ⟨S16x8192x256, .f32⟩
  | .hbm, ⟨89, _⟩ => ⟨S1x1x256, .f32⟩
  | .hbm, ⟨90, _⟩ => ⟨S16x8192x256, .f32⟩
  | .hbm, ⟨91, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_call0_c : Ref sig .tc := ⟨.hbm, 16, rfl⟩
abbrev main_call0_call0_v0 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S16x8192 : S_.BroadcastsInDim S16x8192 (![] : Fin 0 → Fin S16x8192.rank)
  bcast_S_S16x1 : S_.BroadcastsInDim S16x1 (![] : Fin 0 → Fin S16x1.rank)
  slices_S16x8192_S16x8191_0_0 : S16x8192.Slices ![0, 0] S16x8191
  concatenates_S16x1_S16x8191_S16x8192_d1 : Shape.Concatenates [S16x1, S16x8191] S16x8192 1
  natLt_1_32 : 1 < 32
  bcast_S_S_ : S_.BroadcastsInDim S_ (![] : Fin 0 → Fin S_.rank)
  reduceWindows_S16x8192_S16x8192_w1s1p0_0_w8192s1p8191_0 : S16x8192.ReduceWindows (![1, 8192] : Fin 2 → Nat) ![1, 1] ![0, 8191] ![0, 0] S16x8192
  h_S_ : 0 < S_.numel
  bcast_S16_S16x1_0 : S16.BroadcastsInDim S16x1 (![0] : Fin 1 → Fin S16x1.rank)
  bcast_S16x1_S16x8192_0_1 : S16x1.BroadcastsInDim S16x8192 (![0, 1] : Fin 2 → Fin S16x8192.rank)
  shapeCasts_S16x8192_S131072 : S16x8192.ShapeCasts S131072
  shapeCasts_S16x8192x256_S131072x256 : S16x8192x256.ShapeCasts S131072x256
  bcast_S_S131073x256 : S_.BroadcastsInDim S131073x256 (![] : Fin 0 → Fin S131073x256.rank)
  bcast_S131072_S131072x1_0 : S131072.BroadcastsInDim S131072x1 (![0] : Fin 1 → Fin S131072x1.rank)
  slices_S131073x256_S131072x256_0_0 : S131073x256.Slices ![0, 0] S131072x256
  bcast_S_S131072 : S_.BroadcastsInDim S131072 (![] : Fin 0 → Fin S131072.rank)
  bcast_S_S131073 : S_.BroadcastsInDim S131073 (![] : Fin 0 → Fin S131073.rank)
  slices_S131073_S131072_0 : S131073.Slices ![0] S131072
  shapeCasts_S131072x256_S16x8192x256 : S131072x256.ShapeCasts S16x8192x256
  shapeCasts_S131072_S16x8192 : S131072.ShapeCasts S16x8192
  bcast_S16x8192_S16x8192x1_0_1 : S16x8192.BroadcastsInDim S16x8192x1 (![0, 1] : Fin 2 → Fin S16x8192x1.rank)
  bcast_S16x8192x1_S16x8192x256_0_1_2 : S16x8192x1.BroadcastsInDim S16x8192x256 (![0, 1, 2] : Fin 3 → Fin S16x8192x256.rank)
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)
  reducesTo_S16x8192x256_S16x8192_d2 : S16x8192x256.ReducesTo [2] S16x8192
  bcast_S_S16x8192x1 : S_.BroadcastsInDim S16x8192x1 (![] : Fin 0 → Fin S16x8192x1.rank)
  scatter_S131073x256_S131072x1_S131072x256_1_0_0_1_wf : ScatterDims.WF S131073x256 S131072x1 S131072x256 [1] [0] [0] 1
  scatter_S131073_S131072x1_S131072_n_0_0_1_wf : ScatterDims.WF S131073 S131072x1 S131072 [] [0] [0] 1
  dot_S16x8192x256_S256x256_S16x8192x256_2_1_01_0_n_n_wf : DotDims.WF S16x8192x256 S256x256 S16x8192x256 [2] [1] [0, 1] [0] [] []

variable [Facts₀]

def scatter_S131073x256_S131072x1_S131072x256_1_0_0_1 : ScatterDims S131073x256 S131072x1 S131072x256 where
  updateWindowDims := [1]
  insertedWindowDims := [0]
  scatterDimsToOperandDims := [0]
  indexVectorDim := 1
  wf := scatter_S131073x256_S131072x1_S131072x256_1_0_0_1_wf
def scatter_S131073_S131072x1_S131072_n_0_0_1 : ScatterDims S131073 S131072x1 S131072 where
  updateWindowDims := []
  insertedWindowDims := [0]
  scatterDimsToOperandDims := [0]
  indexVectorDim := 1
  wf := scatter_S131073_S131072x1_S131072_n_0_0_1_wf
def dot_S16x8192x256_S256x256_S16x8192x256_2_1_01_0_n_n : DotDims S16x8192x256 S256x256 S16x8192x256 where
  lhsContracting := [2]
  rhsContracting := [1]
  lhsNonContracting := [0, 1]
  rhsNonContracting := [0]
  lhsBatch := []
  rhsBatch := []
  wf := dot_S16x8192x256_S256x256_S16x8192x256_2_1_01_0_n_n_wf

class Facts : Prop extends Facts₀ where

variable [Facts]
-- ==== Proof.BlockRead.lean ====
/-
  The kernel body's layout operations and its two kinds of sums, read at an index of a block of 8 rows by 256
  slots by 256 coordinates. A count per slot becomes a column (a trailing axis of extent one) and is repeated along
  the last axis; a vector of 256 becomes a row repeated over rows and slots; the block is read as 2048 rows for the
  matrix product, row `a * 256 + r` being slot `(a, r)`, and back. The product into a zero accumulator contracts
  the two operands' second axes, so entry `(ρ, e)` is the sum over `d` of `L (ρ, d) * R (e, d)`; a sum over the last
  axis at `(a, r)` is the sum over `k` of the entries `(a, r, k)`.
-/
import proofs.«170537_j13529146983189_1_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.KernelIdeal.BlockRead

open Cert.KernelIdeal Cert.KernelIdeal.Gen Idealize.ShloMosaic Idealize.ShloMosaic.TcCoe Idealize.SL.Sem
open Idealize.ShloMosaic.ValueIdx

variable {α : Type}

/-- Slot `(a, r)` as one of the 2048 rows the matrix product sees. -/
abbrev row (a : Fin 8) (r : Fin 256) : Fin 2048 := ⟨a.val * 256 + r.val, by have := a.isLt; have := r.isLt; omega⟩

/-- A per-slot value as a column: the trailing unit axis reads the slot's value. -/
theorem column_apply (v : S8x256.Idx → α) (a : Fin 8) (r : Fin 256) (z : Fin 1) :
    shapeCast S8x256x1 v shapeCasts_S8x256_S8x256x1 (ix3 a r z) = v (ix2 a r) :=
  shapeCast_apply _ _ (ix3 a r z) (ix2 a r) (by
    rw [Shape.rowMajor_val_two, Shape.rowMajor_val_three]
    show a.val * 256 + r.val = (a.val * 256 + r.val) * 1 + z.val
    have := z.isLt; omega)

/-- A column repeated along the last axis reads the column at the same slot. -/
theorem alongLast_apply (u : S8x256x1.Idx → α) (a : Fin 8) (r : Fin 256) (e : Fin 256) :
    broadcastTo S8x256x256 u broadcasts_S8x256x1_S8x256x256 (ix3 a r e) = u (ix3 a r (0 : Fin 1)) :=
  broadcastTo_apply _ _ (ix3 a r e) (ix3 a r (0 : Fin 1)) (fun ax => match ax with
    | ⟨0, _⟩ => by show a.val = (if (8 : Nat) = 1 then 0 else a.val); rw [if_neg (by decide)]
    | ⟨1, _⟩ => by show r.val = (if (256 : Nat) = 1 then 0 else r.val); rw [if_neg (by decide)]
    | ⟨2, _⟩ => by show 0 = (if (1 : Nat) = 1 then 0 else e.val); rw [if_pos rfl])

/-- A vector of 256 repeated over rows and slots reads the vector at the last coordinate. -/
theorem overSlots_apply (P : S256.Idx → α) (a : Fin 8) (r : Fin 256) (e : Fin 256) :
    broadcastTo S8x256x256 (shapeCast S1x1x256 P shapeCasts_S256_S1x1x256) broadcasts_S1x1x256_S8x256x256 (ix3 a r e) = P (ix1 e) := by
  refine (broadcastTo_apply _ _ (ix3 a r e) (ix3 (0 : Fin 1) (0 : Fin 1) e) (fun ax => match ax with
    | ⟨0, _⟩ => by show 0 = (if (1 : Nat) = 1 then 0 else a.val); rw [if_pos rfl]
    | ⟨1, _⟩ => by show 0 = (if (1 : Nat) = 1 then 0 else r.val); rw [if_pos rfl]
    | ⟨2, _⟩ => by show e.val = (if (256 : Nat) = 1 then 0 else e.val); rw [if_neg (by decide)])).trans ?_
  exact shapeCast_apply _ _ (ix3 (0 : Fin 1) (0 : Fin 1) e) (ix1 e) (by
    rw [Shape.rowMajor_val_one, Shape.rowMajor_val_three]
    show e.val = (0 * 1 + 0) * 256 + e.val
    omega)

/-- The block read as 2048 rows: row `a * 256 + r` is slot `(a, r)`. -/
theorem asRows_apply (v : S8x256x256.Idx → α) (a : Fin 8) (r : Fin 256) (d : Fin 256) :
    shapeCast S2048x256 v shapeCasts_S8x256x256_S2048x256 (ix2 (row a r) d) = v (ix3 a r d) :=
  shapeCast_apply _ _ (ix2 (row a r) d) (ix3 a r d) (by
    rw [Shape.rowMajor_val_two, Shape.rowMajor_val_three]
    show (a.val * 256 + r.val) * 256 + d.val = (a.val * 256 + r.val) * 256 + d.val
    rfl)

/-- And back: slot `(a, r)` of the block reads row `a * 256 + r`. -/
theorem asBlock_apply (w : S2048x256.Idx → α) (a : Fin 8) (r : Fin 256) (e : Fin 256) :
    shapeCast S8x256x256 w shapeCasts_S2048x256_S8x256x256 (ix3 a r e) = w (ix2 (row a r) e) :=
  shapeCast_apply _ _ (ix3 a r e) (ix2 (row a r) e) (by
    rw [Shape.rowMajor_val_two, Shape.rowMajor_val_three]
    show (a.val * 256 + r.val) * 256 + e.val = (a.val * 256 + r.val) * 256 + e.val
    rfl)

/-- A sum over the last axis at slot `(a, r)`: the sum over `k` of the entries `(a, r, k)`. -/
theorem lastSum_apply (src : FVec Ideal S8x256x256 .f32) (hφ : FKind.Formats .f32)
    (hacc : (0x00000000#32 : BitVec 32) = FKind.add.neutral .f32 hφ) (a : Fin 8) (r : Fin 256) :
    multiReduction .add [2] S8x256 src 0x00000000#32 reduces_S8x256x256_S8x256 hφ hacc (ix2 a r)
      = ∑ k : Fin 256, src (ix3 a r k) := by
  refine (Ideal.multiReduction_add_single src 0x00000000#32 reduces_S8x256x256_S8x256 hφ hacc (ix2 a r)).trans ?_
  refine Finset.sum_congr rfl fun k _ => congrArg src ?_
  funext ax
  match ax with
  | ⟨0, _⟩ => rfl
  | ⟨1, _⟩ => rfl
  | ⟨2, _⟩ => rfl

end Cert.KernelIdeal.BlockRead

end
-- ==== Proof.BlockProduct.lean ====
/-
  The kernel's matrix product read at an index. The product of the 2048 by 256 block of pooled means with the 256 by
  256 matrix contracts the SECOND axis of each operand, into a zero accumulator: entry `(ρ, e)` is the sum over `d`
  of `L (ρ, d) * R (e, d)`. The left operand's index at output `(ρ, e)` and contraction position `d` is `(ρ, d)`, the
  right operand's `(e, d)`; the contraction position is its one coordinate.
-/
import proofs.«170537_j13529146983189_1_alg».proof.Proof.Gen.KernelIdeal.Skeleton
import Idealize.ShloMosaic.PureOps.Ideal.Laws
import Idealize.ShloMosaic.Lib.ValueIdx

noncomputable section

open scoped BigOperators

namespace Cert.KernelIdeal.BlockProduct

open Cert.KernelIdeal Cert.KernelIdeal.Gen Idealize.ShloMosaic Idealize.ShloMosaic.TcCoe Idealize.SL.Sem
open Idealize.ShloMosaic.ValueIdx

theorem lhs_axis0 (j : S2048x256.Idx) (k : dot_S2048x256_S256x256_S2048x256_1_1_0_0_n_n.contr.Idx) :
    (dot_S2048x256_S256x256_S2048x256_1_1_0_0_n_n.lhsIdx j k 0).val = (j 0).val := by
  unfold DotDims.lhsIdx
  rw [dif_neg (show ¬(0 : Fin S2048x256.rank) ∈ dot_S2048x256_S256x256_S2048x256_1_1_0_0_n_n.lhsBatch by decide),
    dif_pos (show (0 : Fin S2048x256.rank) ∈ dot_S2048x256_S256x256_S2048x256_1_1_0_0_n_n.lhsNonContracting by decide)]
  rfl

theorem lhs_axis1 (j : S2048x256.Idx) (k : dot_S2048x256_S256x256_S2048x256_1_1_0_0_n_n.contr.Idx) :
    (dot_S2048x256_S256x256_S2048x256_1_1_0_0_n_n.lhsIdx j k 1).val = (k ⟨0, by decide⟩).val :=
  DotDims.lhsIdx_val_of_single _ (cl := (1 : Fin S2048x256.rank)) rfl j k

theorem rhs_axis0 (j : S2048x256.Idx) (k : dot_S2048x256_S256x256_S2048x256_1_1_0_0_n_n.contr.Idx) :
    (dot_S2048x256_S256x256_S2048x256_1_1_0_0_n_n.rhsIdx j k 0).val = (j 1).val := by
  unfold DotDims.rhsIdx
  rw [dif_neg (show ¬(0 : Fin S256x256.rank) ∈ dot_S2048x256_S256x256_S2048x256_1_1_0_0_n_n.rhsBatch by decide),
    dif_pos (show (0 : Fin S256x256.rank) ∈ dot_S2048x256_S256x256_S2048x256_1_1_0_0_n_n.rhsNonContracting by decide)]
  rfl

theorem rhs_axis1 (j : S2048x256.Idx) (k : dot_S2048x256_S256x256_S2048x256_1_1_0_0_n_n.contr.Idx) :
    (dot_S2048x256_S256x256_S2048x256_1_1_0_0_n_n.rhsIdx j k 1).val = (k ⟨0, by decide⟩).val :=
  DotDims.rhsIdx_val_of_single _ (cr := (1 : Fin S256x256.rank)) rfl j k

/-- Entry `(ρ, e)` of the product into the zero accumulator: the sum over `d` of `L (ρ, d) * R (e, d)`. -/
theorem product_apply (Lm : FVec Ideal S2048x256 .bf16) (Rm : FVec Ideal S256x256 .bf16) (ρ : Fin 2048) (e : Fin 256) :
    matmul dot_S2048x256_S256x256_S2048x256_1_1_0_0_n_n none Lm Rm (constant S2048x256 .f32 0x00000000#32) (ix2 ρ e)
      = ∑ d : Fin 256, Lm (ix2 ρ d) * Rm (ix2 e d) := by
  refine (Ideal.matmul_constant_zero_apply dot_S2048x256_S256x256_S2048x256_1_1_0_0_n_n none Lm Rm (ix2 ρ e)).trans ?_
  refine ((contrEquiv1 dot_S2048x256_S256x256_S2048x256_1_1_0_0_n_n 256 rfl rfl).symm.sum_comp
    (fun k => Lm (dot_S2048x256_S256x256_S2048x256_1_1_0_0_n_n.lhsIdx (ix2 ρ e) k)
      * Rm (dot_S2048x256_S256x256_S2048x256_1_1_0_0_n_n.rhsIdx (ix2 ρ e) k))).symm.trans ?_
  refine Finset.sum_congr rfl fun d _ => ?_
  have hk : (((contrEquiv1 dot_S2048x256_S256x256_S2048x256_1_1_0_0_n_n 256 rfl rfl).symm d) ⟨0, by decide⟩ : ℕ) = d.val :=
    contrEquiv1_symm_val _ 256 rfl rfl d
  have hl : dot_S2048x256_S256x256_S2048x256_1_1_0_0_n_n.lhsIdx (ix2 ρ e)
      ((contrEquiv1 dot_S2048x256_S256x256_S2048x256_1_1_0_0_n_n 256 rfl rfl).symm d) = ix2 ρ d := by
    funext ax; apply Fin.ext
    match ax with
    | ⟨0, _⟩ => exact lhs_axis0 _ _
    | ⟨1, _⟩ => exact (lhs_axis1 _ _).trans hk
  have hr : dot_S2048x256_S256x256_S2048x256_1_1_0_0_n_n.rhsIdx (ix2 ρ e)
      ((contrEquiv1 dot_S2048x256_S256x256_S2048x256_1_1_0_0_n_n 256 rfl rfl).symm d) = ix2 e d := by
    funext ax; apply Fin.ext
    match ax with
    | ⟨0, _⟩ => exact rhs_axis0 _ _
    | ⟨1, _⟩ => exact (rhs_axis1 _ _).trans hk
  show Lm _ * Rm _ = _
  rw [hl, hr]

end Cert.KernelIdeal.BlockProduct

end
-- ==== Proof.PoolNorm.lean ====
/-
  What both programs compute, index by index, over the extended reals.

  A batch row `p` of `n0` and a segment slot `q` of `n1` hold a vector of 256 sums `S (p, q, ·)` and a token count
  `C (p, q)`. The segment's pooled mean is the sum divided by the count, an empty slot's count read as one; it is
  projected by the matrix `W` (row `e` of `W` against the pooled vector) with a bias `B`, and the 256 projected
  values are normalised over their own axis: centred on their mean, scaled by the reciprocal square root of their
  variance plus a small constant, multiplied by `G` and shifted by `Be`. Beside it goes the occupancy of the slot: one
  where the count is positive, zero elsewhere.

  The two leading extents are parameters because the same formula is read twice: over a block of 8 rows by 256
  slots, as the kernel computes it, and over the whole array of 16 by 8192. The formula at `(p, q, ·)` reads `S` and
  `C` at row `p`, slot `q` only (`normed_congr`), which is why a block's result is the array's restricted to it.
  The float literals stay the words the programs print: the same word on both sides is never evaluated.
-/
import Idealize.ShloMosaic.PureOps.Ideal
import Idealize.ShloMosaic.Lib.ValueIdx

noncomputable section

open scoped BigOperators

namespace Cert.PoolNorm

open Idealize.ShloMosaic Idealize.ShloMosaic.ValueIdx

variable {n0 n1 : Nat}

/-- The word of `1.0`, the count an empty slot is given. -/
abbrev oneW : EReal := Ideal.ofBits .f32 0x3F800000#32
/-- The word of `256.0`, the length of the normalised axis. -/
abbrev lenW : EReal := Ideal.ofBits .f32 0x43800000#32
/-- The word of the constant added to the variance. -/
abbrev epsW : EReal := Ideal.ofBits .f32 0x3727C5AC#32
/-- The word of `0.0`, against which a count is compared. -/
abbrev zeroW : EReal := Ideal.ofBits .f32 0x00000000#32

/-- Coordinate `d` of slot `(p, q)`'s pooled mean: the sum over the count, the count at least one. -/
def pooled (S : (⟨3, ![n0, n1, 256]⟩ : Shape).Idx → EReal) (C : (⟨2, ![n0, n1]⟩ : Shape).Idx → EReal)
    (p : Fin n0) (q : Fin n1) (d : Fin 256) : EReal :=
  Ideal.div (S (ix3 p q d)) (max (C (ix2 p q)) oneW)

/-- Coordinate `e` of the projection: row `e` of `W` against the pooled mean, plus the bias. -/
def proj (S : (⟨3, ![n0, n1, 256]⟩ : Shape).Idx → EReal) (C : (⟨2, ![n0, n1]⟩ : Shape).Idx → EReal)
    (W : (⟨2, ![256, 256]⟩ : Shape).Idx → EReal) (B : (⟨1, ![256]⟩ : Shape).Idx → EReal)
    (p : Fin n0) (q : Fin n1) (e : Fin 256) : EReal :=
  (∑ d : Fin 256, pooled S C p q d * W (ix2 e d)) + B (ix1 e)

/-- The mean of the 256 projected values of slot `(p, q)`. -/
def mean (S : (⟨3, ![n0, n1, 256]⟩ : Shape).Idx → EReal) (C : (⟨2, ![n0, n1]⟩ : Shape).Idx → EReal)
    (W : (⟨2, ![256, 256]⟩ : Shape).Idx → EReal) (B : (⟨1, ![256]⟩ : Shape).Idx → EReal)
    (p : Fin n0) (q : Fin n1) : EReal :=
  Ideal.div (∑ e : Fin 256, proj S C W B p q e) lenW

/-- A projected value less the slot's mean. -/
def dev (S : (⟨3, ![n0, n1, 256]⟩ : Shape).Idx → EReal) (C : (⟨2, ![n0, n1]⟩ : Shape).Idx → EReal)
    (W : (⟨2, ![256, 256]⟩ : Shape).Idx → EReal) (B : (⟨1, ![256]⟩ : Shape).Idx → EReal)
    (p : Fin n0) (q : Fin n1) (e : Fin 256) : EReal :=
  proj S C W B p q e - mean S C W B p q

/-- The mean of the squared deviations of slot `(p, q)`. -/
def var (S : (⟨3, ![n0, n1, 256]⟩ : Shape).Idx → EReal) (C : (⟨2, ![n0, n1]⟩ : Shape).Idx → EReal)
    (W : (⟨2, ![256, 256]⟩ : Shape).Idx → EReal) (B : (⟨1, ![256]⟩ : Shape).Idx → EReal)
    (p : Fin n0) (q : Fin n1) : EReal :=
  Ideal.div (∑ e : Fin 256, dev S C W B p q e * dev S C W B p q e) lenW

/-- A deviation scaled by the reciprocal square root of the variance plus the small constant. -/
def scaled (S : (⟨3, ![n0, n1, 256]⟩ : Shape).Idx → EReal) (C : (⟨2, ![n0, n1]⟩ : Shape).Idx → EReal)
    (W : (⟨2, ![256, 256]⟩ : Shape).Idx → EReal) (B : (⟨1, ![256]⟩ : Shape).Idx → EReal)
    (p : Fin n0) (q : Fin n1) (e : Fin 256) : EReal :=
  dev S C W B p q e * Ideal.rsqrt (var S C W B p q + epsW)

/-- The normalised projection at `(p, q, e)`: the scaled deviation times `G e`, plus `Be e`. -/
def normed (S : (⟨3, ![n0, n1, 256]⟩ : Shape).Idx → EReal) (C : (⟨2, ![n0, n1]⟩ : Shape).Idx → EReal)
    (W : (⟨2, ![256, 256]⟩ : Shape).Idx → EReal) (B G Be : (⟨1, ![256]⟩ : Shape).Idx → EReal)
    (p : Fin n0) (q : Fin n1) (e : Fin 256) : EReal :=
  scaled S C W B p q e * G (ix1 e) + Be (ix1 e)

/-- The normalised projection as one array. -/
def normedArr (S : (⟨3, ![n0, n1, 256]⟩ : Shape).Idx → EReal) (C : (⟨2, ![n0, n1]⟩ : Shape).Idx → EReal)
    (W : (⟨2, ![256, 256]⟩ : Shape).Idx → EReal) (B G Be : (⟨1, ![256]⟩ : Shape).Idx → EReal) :
    (⟨3, ![n0, n1, 256]⟩ : Shape).Idx → EReal :=
  fun i => normed S C W B G Be (i 0) (i 1) (i 2)

/-- The occupancy of a slot: the bit "the count is positive" read as a number. -/
def occupied (C : (⟨2, ![n0, n1]⟩ : Shape).Idx → EReal) : (⟨2, ![n0, n1]⟩ : Shape).Idx → EReal :=
  fun i => (((Ideal.cmp .ogt (C i) zeroW).toNat : ℝ) : EReal)

theorem normedArr_apply (S : (⟨3, ![n0, n1, 256]⟩ : Shape).Idx → EReal) (C : (⟨2, ![n0, n1]⟩ : Shape).Idx → EReal)
    (W : (⟨2, ![256, 256]⟩ : Shape).Idx → EReal) (B G Be : (⟨1, ![256]⟩ : Shape).Idx → EReal)
    (p : Fin n0) (q : Fin n1) (e : Fin 256) :
    normedArr S C W B G Be (ix3 p q e) = normed S C W B G Be p q e := rfl

/-- The formula at row `p`, slot `q` reads the sums and the count there and nowhere else: two pairs of arrays that
    agree there give the same value. This is what lets a block stand for the array. -/
theorem normed_congr {k0 k1 : Nat}
    (S : (⟨3, ![n0, n1, 256]⟩ : Shape).Idx → EReal) (C : (⟨2, ![n0, n1]⟩ : Shape).Idx → EReal)
    (S' : (⟨3, ![k0, k1, 256]⟩ : Shape).Idx → EReal) (C' : (⟨2, ![k0, k1]⟩ : Shape).Idx → EReal)
    (W : (⟨2, ![256, 256]⟩ : Shape).Idx → EReal) (B G Be : (⟨1, ![256]⟩ : Shape).Idx → EReal)
    (p : Fin n0) (q : Fin n1) (a : Fin k0) (r : Fin k1)
    (hS : ∀ d : Fin 256, S' (ix3 a r d) = S (ix3 p q d)) (hC : C' (ix2 a r) = C (ix2 p q)) (e : Fin 256) :
    normed S' C' W B G Be a r e = normed S C W B G Be p q e := by
  have hp : ∀ d, pooled S' C' a r d = pooled S C p q d := fun d => by unfold pooled; rw [hS d, hC]
  have hj : ∀ e, proj S' C' W B a r e = proj S C W B p q e := fun e => by
    unfold proj; rw [Finset.sum_congr rfl fun d _ => by rw [hp d]]
  have hm : mean S' C' W B a r = mean S C W B p q := by
    unfold mean; rw [Finset.sum_congr rfl fun e _ => hj e]
  have hd : ∀ e, dev S' C' W B a r e = dev S C W B p q e := fun e => by unfold dev; rw [hj e, hm]
  have hv : var S' C' W B a r = var S C W B p q := by
    unfold var; rw [Finset.sum_congr rfl fun e _ => by rw [hd e]]
  unfold normed scaled
  rw [hd e, hv]

theorem occupied_congr {k0 k1 : Nat} (C : (⟨2, ![n0, n1]⟩ : Shape).Idx → EReal) (C' : (⟨2, ![k0, k1]⟩ : Shape).Idx → EReal)
    (i : (⟨2, ![n0, n1]⟩ : Shape).Idx) (i' : (⟨2, ![k0, k1]⟩ : Shape).Idx) (h : C' i' = C i) :
    occupied C' i' = occupied C i := by
  unfold occupied; rw [h]

end Cert.PoolNorm

end
-- ==== Proof.BlockNorm.lean ====
/-
  The kernel body's value at an index of its block. Over a block of 8 rows by 256 slots the body forms, slot by
  slot: the count made at least one; the sums divided by it; the projection of that by the matrix and the bias
  (through the block read as 2048 rows); the mean of the 256 projected values; their deviations from it; the mean
  of the squared deviations; and the deviations scaled by the reciprocal square root of that plus a small constant.
  Each is read at an index here, and together they are the specification's `scaled` at the block's extents.
-/
import proofs.«170537_j13529146983189_1_alg».proof.Proof.BlockRead
import proofs.«170537_j13529146983189_1_alg».proof.Proof.BlockProduct
import proofs.«170537_j13529146983189_1_alg».proof.Proof.PoolNorm

noncomputable section

open scoped BigOperators

namespace Cert.KernelIdeal.BlockNorm

open Cert.KernelIdeal Cert.KernelIdeal.Gen Idealize.ShloMosaic Idealize.ShloMosaic.TcCoe Idealize.SL.Sem
open Idealize.ShloMosaic.ValueIdx Cert.KernelIdeal.BlockRead Cert.KernelIdeal.BlockProduct

/-- A sum over the last axis as the body writes it, at slot `(a, r)`. -/
theorem lastSum_apply (src : FVec Ideal S8x256x256 .f32) (a : Fin 8) (r : Fin 256) :
    multiReduction .add [2] S8x256 src 0x00000000#32 reduces_S8x256x256_S8x256 (.inl rfl) rfl (ix2 a r)
      = ∑ k : Fin 256, src (ix3 a r k) :=
  BlockRead.lastSum_apply src (.inl rfl) rfl a r

/-- The counts made at least one. -/
def den (P0 : FVec Ideal S8x256 .f32) : FVec Ideal S8x256 .f32 :=
  maximumf (shapeCast S8x256 P0 shapeCasts_S8x256_S8x256) (broadcast S8x256 (Scalar.ofBits .f32 0x3F800000#32))

/-- The sums over the counts. -/
def pooledBlk (P0 : FVec Ideal S8x256 .f32) (P1 : FVec Ideal S8x256x256 .f32) : FVec Ideal S8x256x256 .f32 :=
  divf (shapeCast S8x256x256 P1 shapeCasts_S8x256x256_S8x256x256)
    (broadcastTo S8x256x256 (shapeCast S8x256x1 (den P0) shapeCasts_S8x256_S8x256x1) broadcasts_S8x256x1_S8x256x256)

/-- The projection by the matrix and the bias. -/
def projBlk (P0 : FVec Ideal S8x256 .f32) (P1 : FVec Ideal S8x256x256 .f32) (P2 : FVec Ideal S256x256 .f32)
    (P3 : FVec Ideal S256 .f32) : FVec Ideal S8x256x256 .f32 :=
  addf
    (shapeCast S8x256x256
      (matmul dot_S2048x256_S256x256_S2048x256_1_1_0_0_n_n none
        (shapeCast S2048x256 (truncf .bf16 (pooledBlk P0 P1) bitsLt_bf16_f32) shapeCasts_S8x256x256_S2048x256)
        (truncf .bf16 P2 bitsLt_bf16_f32) (constant S2048x256 .f32 0x00000000#32))
      shapeCasts_S2048x256_S8x256x256)
    (broadcastTo S8x256x256 (shapeCast S1x1x256 P3 shapeCasts_S256_S1x1x256) broadcasts_S1x1x256_S8x256x256)

/-- The mean over the last axis, as a column. -/
def meanBlk (X : FVec Ideal S8x256x256 .f32) : FVec Ideal S8x256x1 .f32 :=
  divf
    (shapeCast S8x256x1 (multiReduction .add [2] S8x256 X 0x00000000#32 reduces_S8x256x256_S8x256 (.inl rfl) rfl)
      shapeCasts_S8x256_S8x256x1)
    (broadcast S8x256x1 (Scalar.ofBits .f32 0x43800000#32))

/-- The deviations from the mean. -/
def devBlk (X : FVec Ideal S8x256x256 .f32) : FVec Ideal S8x256x256 .f32 :=
  subf X (broadcastTo S8x256x256 (meanBlk X) broadcasts_S8x256x1_S8x256x256)

/-- The deviations scaled by the reciprocal square root of their mean square plus the small constant. -/
def scaledBlk (X : FVec Ideal S8x256x256 .f32) : FVec Ideal S8x256x256 .f32 :=
  mulf (devBlk X)
    (broadcastTo S8x256x256
      (rsqrt (addf (meanBlk (mulf (devBlk X) (devBlk X))) (broadcast S8x256x1 (Scalar.ofBits .f32 0x3727C5AC#32))))
      broadcasts_S8x256x1_S8x256x256)

/-- The body's payload is these steps composed. -/
theorem pay4_eq (P0 : FVec Ideal S8x256 .f32) (P1 : FVec Ideal S8x256x256 .f32) (P2 : FVec Ideal S256x256 .f32)
    (P3 : FVec Ideal S256 .f32) : k0_pay4 (F := Ideal) P0 P1 P2 P3 = scaledBlk (projBlk P0 P1 P2 P3) := rfl

theorem den_apply (P0 : FVec Ideal S8x256 .f32) (a : Fin 8) (r : Fin 256) :
    den P0 (ix2 a r) = max (P0 (ix2 a r)) Cert.PoolNorm.oneW := by
  unfold den
  rw [shapeCast_self]
  rfl

theorem pooledBlk_apply (P0 : FVec Ideal S8x256 .f32) (P1 : FVec Ideal S8x256x256 .f32) (a : Fin 8) (r : Fin 256) (d : Fin 256) :
    pooledBlk P0 P1 (ix3 a r d) = Cert.PoolNorm.pooled P1 P0 a r d := by
  unfold pooledBlk Cert.PoolNorm.pooled
  rw [shapeCast_self]
  show Ideal.div (P1 (ix3 a r d))
    (broadcastTo S8x256x256 (shapeCast S8x256x1 (den P0) shapeCasts_S8x256_S8x256x1) broadcasts_S8x256x1_S8x256x256 (ix3 a r d)) = _
  rw [alongLast_apply, column_apply, den_apply]

theorem projBlk_apply (P0 : FVec Ideal S8x256 .f32) (P1 : FVec Ideal S8x256x256 .f32) (P2 : FVec Ideal S256x256 .f32)
    (P3 : FVec Ideal S256 .f32) (a : Fin 8) (r : Fin 256) (e : Fin 256) :
    projBlk P0 P1 P2 P3 (ix3 a r e) = Cert.PoolNorm.proj P1 P0 P2 P3 a r e := by
  unfold projBlk Cert.PoolNorm.proj
  show (shapeCast S8x256x256
      (matmul dot_S2048x256_S256x256_S2048x256_1_1_0_0_n_n none
        (shapeCast S2048x256 (truncf .bf16 (pooledBlk P0 P1) bitsLt_bf16_f32) shapeCasts_S8x256x256_S2048x256)
        (truncf .bf16 P2 bitsLt_bf16_f32) (constant S2048x256 .f32 0x00000000#32))
      shapeCasts_S2048x256_S8x256x256 (ix3 a r e))
    + (broadcastTo S8x256x256 (shapeCast S1x1x256 P3 shapeCasts_S256_S1x1x256) broadcasts_S1x1x256_S8x256x256 (ix3 a r e)) = _
  rw [asBlock_apply, overSlots_apply, product_apply]
  refine congrArg (· + P3 (ix1 e)) (Finset.sum_congr rfl fun d _ => ?_)
  rw [asRows_apply]
  show pooledBlk P0 P1 (ix3 a r d) * P2 (ix2 e d) = _
  rw [pooledBlk_apply]

theorem meanBlk_apply (X : FVec Ideal S8x256x256 .f32) (a : Fin 8) (r : Fin 256) (z : Fin 1) :
    meanBlk X (ix3 a r z) = Ideal.div (∑ k : Fin 256, X (ix3 a r k)) Cert.PoolNorm.lenW := by
  unfold meanBlk
  show Ideal.div
    (shapeCast S8x256x1 (multiReduction .add [2] S8x256 X 0x00000000#32 reduces_S8x256x256_S8x256 (.inl rfl) rfl)
      shapeCasts_S8x256_S8x256x1 (ix3 a r z)) _ = _
  rw [column_apply, lastSum_apply]
  rfl

theorem devBlk_apply (X : FVec Ideal S8x256x256 .f32) (a : Fin 8) (r : Fin 256) (e : Fin 256) :
    devBlk X (ix3 a r e) = X (ix3 a r e) - Ideal.div (∑ k : Fin 256, X (ix3 a r k)) Cert.PoolNorm.lenW := by
  unfold devBlk
  show X (ix3 a r e) - broadcastTo S8x256x256 (meanBlk X) broadcasts_S8x256x1_S8x256x256 (ix3 a r e) = _
  rw [alongLast_apply, meanBlk_apply]

theorem scaledBlk_apply (X : FVec Ideal S8x256x256 .f32) (a : Fin 8) (r : Fin 256) (e : Fin 256) :
    scaledBlk X (ix3 a r e)
      = devBlk X (ix3 a r e)
        * Ideal.rsqrt (Ideal.div (∑ k : Fin 256, devBlk X (ix3 a r k) * devBlk X (ix3 a r k)) Cert.PoolNorm.lenW
            + Cert.PoolNorm.epsW) := by
  unfold scaledBlk
  show devBlk X (ix3 a r e)
    * broadcastTo S8x256x256
        (rsqrt (addf (meanBlk (mulf (devBlk X) (devBlk X))) (broadcast S8x256x1 (Scalar.ofBits .f32 0x3727C5AC#32))))
        broadcasts_S8x256x1_S8x256x256 (ix3 a r e) = _
  rw [alongLast_apply]
  show devBlk X (ix3 a r e)
    * Ideal.rsqrt (meanBlk (mulf (devBlk X) (devBlk X)) (ix3 a r (0 : Fin 1)) + Cert.PoolNorm.epsW) = _
  rw [meanBlk_apply]
  rfl

/-- The body's payload at slot `(a, r)`, coordinate `e`: the specification's scaled deviation over the block. -/
theorem pay4_apply (P0 : FVec Ideal S8x256 .f32) (P1 : FVec Ideal S8x256x256 .f32) (P2 : FVec Ideal S256x256 .f32)
    (P3 : FVec Ideal S256 .f32) (a : Fin 8) (r : Fin 256) (e : Fin 256) :
    k0_pay4 (F := Ideal) P0 P1 P2 P3 (ix3 a r e) = Cert.PoolNorm.scaled P1 P0 P2 P3 a r e := by
  have hdev : ∀ e' : Fin 256, devBlk (projBlk P0 P1 P2 P3) (ix3 a r e') = Cert.PoolNorm.dev P1 P0 P2 P3 a r e' := fun e' => by
    rw [devBlk_apply, projBlk_apply]
    unfold Cert.PoolNorm.dev Cert.PoolNorm.mean
    rw [Finset.sum_congr rfl fun k _ => projBlk_apply P0 P1 P2 P3 a r k]
  rw [pay4_eq, scaledBlk_apply, hdev e, Finset.sum_congr rfl fun k _ => by rw [hdev k]]
  rfl

end Cert.KernelIdeal.BlockNorm

end
-- ==== Proof.KernelArrays.lean ====
/-
  From blocks to arrays. Grid point `t` of the 2 by 32 grid works on rows `8 * bi … 8 * bi + 7` and slots
  `256 * wi … 256 * wi + 255`: the sums, counts, output and occupancy windows all sit at block `(bi, wi)`, the
  matrix and the three vectors are whole at every point. What the point writes back to the output window is the
  specification's normalised projection restricted to that block — the formula at a slot reads the sums and the
  count of that slot only —, and to the occupancy window the occupancy restricted likewise. The 64 blocks tile both
  arrays, so after the run each array is the specification's function of the arrays the region found.
-/
import proofs.«170537_j13529146983189_1_alg».proof.Proof.Gen.KernelIdeal.Value
import proofs.«170537_j13529146983189_1_alg».proof.Proof.BlockNorm

noncomputable section

open scoped BigOperators

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arrays the region finds, and the blocks a point reads, at their literal types -/

abbrev sumsArr (c : Dev nD) : FVec Ideal S16x8192x256 .f32 := V m c main_v29
abbrev countsArr (c : Dev nD) : FVec Ideal S16x8192 .f32 := V m c main_v30
abbrev matArr (c : Dev nD) : FVec Ideal S256x256 .f32 := V m c main_arg2
abbrev biasArr (c : Dev nD) : FVec Ideal S256 .f32 := V m c main_arg3
abbrev scaleArr (c : Dev nD) : FVec Ideal S256 .f32 := V m c main_arg4
abbrev shiftArr (c : Dev nD) : FVec Ideal S256 .f32 := V m c main_arg5

abbrev sumsBlk (c : Dev nD) (t : Fin cfg0.N) : FVec Ideal S8x256x256 .f32 := iblk m c 0 t
abbrev countsBlk (c : Dev nD) (t : Fin cfg0.N) : FVec Ideal S8x256 .f32 := iblk m c 1 t
abbrev matBlk (c : Dev nD) (t : Fin cfg0.N) : FVec Ideal S256x256 .f32 := iblk m c 2 t
abbrev biasBlk (c : Dev nD) (t : Fin cfg0.N) : FVec Ideal S256 .f32 := iblk m c 3 t
abbrev scaleBlk (c : Dev nD) (t : Fin cfg0.N) : FVec Ideal S256 .f32 := iblk m c 4 t
abbrev shiftBlk (c : Dev nD) (t : Fin cfg0.N) : FVec Ideal S256 .f32 := iblk m c 5 t

/-- What the output array holds after the run. -/
def normOut (c : Dev nD) : S16x8192x256.Idx → EReal :=
  Cert.PoolNorm.normedArr (sumsArr m c) (countsArr m c) (matArr m c) (biasArr m c) (scaleArr m c) (shiftArr m c)

/-- What the occupancy array holds after the run. -/
def occOut (c : Dev nD) : S16x8192.Idx → EReal := Cert.PoolNorm.occupied (countsArr m c)

/-! ## The index maps, decided over the 64 points -/

theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = 0 ∧ win0_6.index t (2 : Fin 3) = 0
    ∧ win0_1.index t (0 : Fin 2) = win0_6.index t (0 : Fin 3) ∧ win0_1.index t (1 : Fin 2) = win0_6.index t (1 : Fin 3)
    ∧ win0_7.index t (0 : Fin 2) = win0_6.index t (0 : Fin 3) ∧ win0_7.index t (1 : Fin 2) = win0_6.index t (1 : Fin 3)
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 3) ≤ 1 ∧ win0_6.index t (1 : Fin 3) ≤ 31 :=
  (by decide +kernel : ∀ t : Fin grid0.N, _)

/-- Every block of the output array is some point's; -/
theorem idx_onto6 : ∀ (q0 : Fin 2) (q1 : Fin 32), ∃ t : Fin cfg0.N, win0_6.index t = ![q0.val, q1.val, 0] :=
  (by decide +kernel : ∀ (q0 : Fin 2) (q1 : Fin 32), ∃ t : Fin grid0.N, win0_6.index t = ![q0.val, q1.val, 0])

/-- and every block of the occupancy array. -/
theorem idx_onto7 : ∀ (q0 : Fin 2) (q1 : Fin 32), ∃ t : Fin cfg0.N, win0_7.index t = ![q0.val, q1.val] :=
  (by decide +kernel : ∀ (q0 : Fin 2) (q1 : Fin 32), ∃ t : Fin grid0.N, win0_7.index t = ![q0.val, q1.val])

/-! ## A point's blocks read off the arrays -/

/-- The whole-array windows: the block is the array. -/
theorem matBlk_eq (c : Dev nD) (t : Fin cfg0.N) : matBlk m c t = matArr m c := by
  obtain ⟨-, -, -, -, -, -, -, -, e0, e1, -⟩ := idx_facts t
  funext y
  show V m c main_arg2 (((cfg0.win 2).blk t).view.emb y) = V m c main_arg2 y
  refine congrArg _ (funext fun ax => Fin.ext ?_)
  match ax with
  | ⟨0, _⟩ => show win0_2.index t (0 : Fin 2) * 256 + 1 * (y 0).val = (y 0).val; omega
  | ⟨1, _⟩ => show win0_2.index t (1 : Fin 2) * 256 + 1 * (y 1).val = (y 1).val; omega

theorem biasBlk_eq (c : Dev nD) (t : Fin cfg0.N) : biasBlk m c t = biasArr m c := by
  obtain ⟨-, -, -, -, -, -, -, -, -, -, e0, -⟩ := idx_facts t
  funext y
  show V m c main_arg3 (((cfg0.win 3).blk t).view.emb y) = V m c main_arg3 y
  refine congrArg _ (funext fun ax => Fin.ext ?_)
  match ax with
  | ⟨0, _⟩ => show win0_3.index t (0 : Fin 1) * 256 + 1 * (y 0).val = (y 0).val; omega

theorem scaleBlk_eq (c : Dev nD) (t : Fin cfg0.N) : scaleBlk m c t = scaleArr m c := by
  obtain ⟨-, -, -, -, -, -, -, -, -, -, -, e0, -⟩ := idx_facts t
  funext y
  show V m c main_arg4 (((cfg0.win 4).blk t).view.emb y) = V m c main_arg4 y
  refine congrArg _ (funext fun ax => Fin.ext ?_)
  match ax with
  | ⟨0, _⟩ => show win0_4.index t (0 : Fin 1) * 256 + 1 * (y 0).val = (y 0).val; omega

theorem shiftBlk_eq (c : Dev nD) (t : Fin cfg0.N) : shiftBlk m c t = shiftArr m c := by
  obtain ⟨-, -, -, -, -, -, -, -, -, -, -, -, e0, -⟩ := idx_facts t
  funext y
  show V m c main_arg5 (((cfg0.win 5).blk t).view.emb y) = V m c main_arg5 y
  refine congrArg _ (funext fun ax => Fin.ext ?_)
  match ax with
  | ⟨0, _⟩ => show win0_5.index t (0 : Fin 1) * 256 + 1 * (y 0).val = (y 0).val; omega

/-- The sums block at `(a, r, d)` is the sums array at the output block's row and slot under `(a, r)`, coordinate `d`. -/
theorem sumsBlk_apply (c : Dev nD) (t : Fin cfg0.N) (a : Fin 8) (r : Fin 256) (e d : Fin 256) :
    sumsBlk m c t (ix3 a r d)
      = sumsArr m c (ix3 (((cfg0.win 6).blk t).view.emb (ix3 a r e) 0) (((cfg0.win 6).blk t).view.emb (ix3 a r e) 1) d) := by
  obtain ⟨e0, e1, e2, e3, -⟩ := idx_facts t
  show V m c main_v29 (((cfg0.win 0).blk t).view.emb (ix3 a r d)) = _
  refine congrArg _ (funext fun ax => Fin.ext ?_)
  match ax with
  | ⟨0, _⟩ => show win0_0.index t (0 : Fin 3) * 8 + 1 * a.val = win0_6.index t (0 : Fin 3) * 8 + 1 * a.val; omega
  | ⟨1, _⟩ => show win0_0.index t (1 : Fin 3) * 256 + 1 * r.val = win0_6.index t (1 : Fin 3) * 256 + 1 * r.val; omega
  | ⟨2, _⟩ => show win0_0.index t (2 : Fin 3) * 256 + 1 * d.val = d.val; omega

/-- The counts block at `(a, r)` is the counts array at the same row and slot. -/
theorem countsBlk_apply (c : Dev nD) (t : Fin cfg0.N) (a : Fin 8) (r : Fin 256) (e : Fin 256) :
    countsBlk m c t (ix2 a r)
      = countsArr m c (ix2 (((cfg0.win 6).blk t).view.emb (ix3 a r e) 0) (((cfg0.win 6).blk t).view.emb (ix3 a r e) 1)) := by
  obtain ⟨-, -, -, -, e4, e5, -⟩ := idx_facts t
  show V m c main_v30 (((cfg0.win 1).blk t).view.emb (ix2 a r)) = _
  refine congrArg _ (funext fun ax => Fin.ext ?_)
  match ax with
  | ⟨0, _⟩ => show win0_1.index t (0 : Fin 2) * 8 + 1 * a.val = win0_6.index t (0 : Fin 3) * 8 + 1 * a.val; omega
  | ⟨1, _⟩ => show win0_1.index t (1 : Fin 2) * 256 + 1 * r.val = win0_6.index t (1 : Fin 3) * 256 + 1 * r.val; omega

/-! ## What a point writes back -/

theorem at6_0 (a : Fin 8) (r : Fin 256) (e : Fin 256) : Value.ix6_0 (ix3 a r e) = ix3 a r e := by
  funext ax; apply Fin.ext
  match ax with
  | ⟨0, _⟩ => rfl
  | ⟨1, _⟩ => rfl
  | ⟨2, _⟩ => rfl

theorem at6_1 (a : Fin 8) (r : Fin 256) (e : Fin 256) : Value.ix6_1 (ix3 a r e) = ix1 e := by
  funext ax; apply Fin.ext
  match ax with
  | ⟨0, _⟩ => rfl

theorem at6_2 (a : Fin 8) (r : Fin 256) (e : Fin 256) : Value.ix6_2 (ix3 a r e) = ix1 e := by
  funext ax; apply Fin.ext
  match ax with
  | ⟨0, _⟩ => rfl

theorem at7_0 (a : Fin 8) (r : Fin 256) : Value.ix7_0 (ix2 a r) = ix2 a r := by
  funext ax; apply Fin.ext
  match ax with
  | ⟨0, _⟩ => rfl
  | ⟨1, _⟩ => rfl

/-- The body's result for the output window over block vectors, at `(a, r, e)`: the specification over the block. -/
theorem E6_apply (P0 : FVec Ideal S8x256 .f32) (P1 : FVec Ideal S8x256x256 .f32) (P2 : FVec Ideal S256x256 .f32)
    (P3 P4 P5 : FVec Ideal S256 .f32) (a : Fin 8) (r : Fin 256) (e : Fin 256) :
    Value.E6 (F := Ideal) P0 P1 P2 P3 P4 P5 (ix3 a r e) = Cert.PoolNorm.normed P1 P0 P2 P3 P4 P5 a r e := by
  show k0_pay4 (F := Ideal) P0 P1 P2 P3 (Value.ix6_0 (ix3 a r e)) * P4 (Value.ix6_1 (ix3 a r e)) + P5 (Value.ix6_2 (ix3 a r e)) = _
  rw [at6_0, at6_1, at6_2, BlockNorm.pay4_apply]
  rfl

/-- A one-bit word widened and read signed is the bit read unsigned. -/
theorem bit_signed (b : BitVec 1) : (((b.setWidth 32).toInt : ℝ) : EReal) = ((b.toNat : ℝ) : EReal) := by
  by_cases h : b = 1#1
  · subst h
    rw [show ((1#1 : BitVec 1).setWidth 32).toInt = 1 from by decide, show (1#1 : BitVec 1).toNat = 1 from by decide]
    norm_num
  · have h0 := eq_zero_of_ne_one h
    subst h0
    rw [show ((0#1 : BitVec 1).setWidth 32).toInt = 0 from by decide, show (0#1 : BitVec 1).toNat = 0 from by decide]
    norm_num

/-- The body's result for the occupancy window over a block of counts: the specification's occupancy. -/
theorem E7_apply (P0 : FVec Ideal S8x256 .f32) (a : Fin 8) (r : Fin 256) :
    Value.E7 (F := Ideal) P0 (ix2 a r) = Cert.PoolNorm.occupied P0 (ix2 a r) := by
  show (((((Ideal.cmp .ogt (P0 (Value.ix7_0 (ix2 a r))) (Ideal.ofBits .f32 0x00000000#32)).setWidth 32).toInt : ℝ)) : EReal) = _
  rw [at7_0, bit_signed]
  rfl

/-- What point `t` writes back to the output window is block `t` of the normalised projection of the arrays the
    region found. -/
theorem flushed6_eq (c : Dev nD) (t : Fin cfg0.N) :
    (dats m 0 c).flushed 6 t = ((cfg0.win 6).blk t).view.read (Elt Ideal) (normOut m c) := by
  rw [Value.flushed6]
  unfold out0_6
  funext j
  obtain ⟨a, r, e, rfl⟩ : ∃ (a : Fin 8) (r : Fin 256) (e : Fin 256), j = ix3 a r e := ⟨j 0, j 1, j 2, eq_ix3 j⟩
  show View.canon (Val := Elt Ideal) (s := S8x256x256) (e := .f32) [⟨r0_1, k0_pay1 (F := Ideal) (k0_pay4 (F := Ideal) (View.ld (countsBlk m c t) r0_0) (View.ld (sumsBlk m c t) r0_1)
        (View.ld (matBlk m c t) r0_2) (View.ld (biasBlk m c t) r0_3)) (k0_pay5 (F := Ideal) (View.ld (scaleBlk m c t) r0_3))
        (View.ld (shiftBlk m c t) r0_3)⟩] (ix3 a r e)
    = normOut m c (((cfg0.win 6).blk t).view.emb (ix3 a r e))
  rw [Value.canon6_eq, E6_apply]
  simp only [View.ld_unit_zero (S := S8x256x256) hz3, View.ld_unit_zero (S := S8x256) hz2,
    View.ld_unit_zero (S := S256x256) hz2, View.ld_unit_zero (S := S256) hz1]
  rw [matBlk_eq, biasBlk_eq, scaleBlk_eq, shiftBlk_eq]
  obtain ⟨-, -, -, e3, -⟩ := idx_facts t
  have h2 : ((cfg0.win 6).blk t).view.emb (ix3 a r e) 2 = e :=
    Fin.ext (by show win0_6.index t (2 : Fin 3) * 256 + 1 * e.val = e.val; omega)
  refine (Cert.PoolNorm.normed_congr (sumsArr m c) (countsArr m c) (sumsBlk m c t) (countsBlk m c t)
    (matArr m c) (biasArr m c) (scaleArr m c) (shiftArr m c)
    (((cfg0.win 6).blk t).view.emb (ix3 a r e) 0) (((cfg0.win 6).blk t).view.emb (ix3 a r e) 1) a r
    (fun d => sumsBlk_apply m c t a r e d) (countsBlk_apply m c t a r e) e).trans ?_
  unfold normOut Cert.PoolNorm.normedArr
  exact congrArg (Cert.PoolNorm.normed (sumsArr m c) (countsArr m c) (matArr m c) (biasArr m c) (scaleArr m c) (shiftArr m c)
    (((cfg0.win 6).blk t).view.emb (ix3 a r e) 0) (((cfg0.win 6).blk t).view.emb (ix3 a r e) 1)) h2.symm

/-- What point `t` writes back to the occupancy window is block `t` of the occupancy of the counts the region found. -/
theorem flushed7_eq (c : Dev nD) (t : Fin cfg0.N) :
    (dats m 0 c).flushed 7 t = ((cfg0.win 7).blk t).view.read (Elt Ideal) (occOut m c) := by
  rw [Value.flushed7]
  unfold out0_7
  funext j
  obtain ⟨a, r, rfl⟩ : ∃ (a : Fin 8) (r : Fin 256), j = ix2 a r := ⟨j 0, j 1, eq_ix2 j⟩
  show View.canon (Val := Elt Ideal) (s := S8x256) (e := .f32) [⟨r0_0, k0_pay3 (F := Ideal) (View.ld (countsBlk m c t) r0_0)⟩] (ix2 a r)
    = occOut m c (((cfg0.win 7).blk t).view.emb (ix2 a r))
  rw [Value.canon7_eq, E7_apply]
  simp only [View.ld_unit_zero (S := S8x256) hz2]
  unfold occOut
  refine Cert.PoolNorm.occupied_congr (countsArr m c) (countsBlk m c t) _ _ ?_
  obtain ⟨-, -, -, -, e4, e5, e6, e7, -⟩ := idx_facts t
  show V m c main_v30 (((cfg0.win 1).blk t).view.emb (ix2 a r)) = V m c main_v30 (((cfg0.win 7).blk t).view.emb (ix2 a r))
  refine congrArg _ (funext fun ax => Fin.ext ?_)
  match ax with
  | ⟨0, _⟩ => show win0_1.index t (0 : Fin 2) * 8 + 1 * a.val = win0_7.index t (0 : Fin 2) * 8 + 1 * a.val; omega
  | ⟨1, _⟩ => show win0_1.index t (1 : Fin 2) * 256 + 1 * r.val = win0_7.index t (1 : Fin 2) * 256 + 1 * r.val; omega

/-! ## The 64 blocks tile both arrays -/

theorem mem_blk6 (t : Fin cfg0.N) (i : S16x8192x256.Idx) :
    i ∈ ((cfg0.win 6).blk t).view.set ↔ ∀ a : Fin 3, win0_6.index t a * S8x256x256.size a ≤ (i a).val
      ∧ (i a).val < win0_6.index t a * S8x256x256.size a + S8x256x256.size a := by
  show i ∈ ((View.whole main_v31_0).slice (win0_6.rect t)).set ↔ _
  rw [View.set_slice_whole, Rect.mem_set_unit]
  exact Iff.rfl

theorem mem_blk7 (t : Fin cfg0.N) (i : S16x8192.Idx) :
    i ∈ ((cfg0.win 7).blk t).view.set ↔ ∀ a : Fin 2, win0_7.index t a * S8x256.size a ≤ (i a).val
      ∧ (i a).val < win0_7.index t a * S8x256.size a + S8x256.size a := by
  show i ∈ ((View.whole main_v31_1).slice (win0_7.rect t)).set ↔ _
  rw [View.set_slice_whole, Rect.mem_set_unit]
  exact Iff.rfl

/-- Every index of the output array is in some point's block: the block of row `i₀ / 8`, slot `i₁ / 256`. -/
theorem cover6 (i : S16x8192x256.Idx) :
    ∃ t : Fin cfg0.N, (cfg0.win 6).flush t = true ∧ i ∈ ((cfg0.win 6).blk t).view.set := by
  have hi0 : (i 0).val < 16 := (i 0).isLt
  have hi1 : (i 1).val < 8192 := (i 1).isLt
  have hi2 : (i 2).val < 256 := (i 2).isLt
  obtain ⟨t, ht⟩ := idx_onto6 ⟨(i 0).val / 8, by omega⟩ ⟨(i 1).val / 256, by omega⟩
  have q0 : win0_6.index t (0 : Fin 3) = (i 0).val / 8 := congrFun ht 0
  have q1 : win0_6.index t (1 : Fin 3) = (i 1).val / 256 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

/-- Every index of the occupancy array likewise. -/
theorem cover7 (i : S16x8192.Idx) :
    ∃ t : Fin cfg0.N, (cfg0.win 7).flush t = true ∧ i ∈ ((cfg0.win 7).blk t).view.set := by
  have hi0 : (i 0).val < 16 := (i 0).isLt
  have hi1 : (i 1).val < 8192 := (i 1).isLt
  obtain ⟨t, ht⟩ := idx_onto7 ⟨(i 0).val / 8, by omega⟩ ⟨(i 1).val / 256, by omega⟩
  have q0 : win0_7.index t (0 : Fin 2) = (i 0).val / 8 := congrFun ht 0
  have q1 : win0_7.index t (1 : Fin 2) = (i 1).val / 256 := congrFun ht 1
  refine ⟨t, flush0_7 t, ?_⟩
  rw [mem_blk7]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 256 ≤ (i 1).val ∧ (i 1).val < win0_7.index t (1 : Fin 2) * 256 + 256; omega

/-! ## The arrays after the run -/

theorem final6 (c : Dev nD) : (dats m 0 c).arrAt 6 cfg0.N = normOut m c :=
  (dats m 0 c).arrAt_eq_of_cover 6 (normOut m c) (fun t _ => flushed6_eq m c t) cover6

theorem final7 (c : Dev nD) : (dats m 0 c).arrAt 7 cfg0.N = occOut m c :=
  (dats m 0 c).arrAt_eq_of_cover 7 (occOut m c) (fun t _ => flushed7_eq m c t) cover7

/-- The kernel program's run: the output array ends at the normalised projection, the occupancy array at the
    occupancy, of the arrays the region found; the arguments end unchanged. -/
theorem run : θ_run defs (onTc (τ := τ) (main (F := Ideal))) ⟨m, fun _ => 0, ρ⟩ fun r => ∀ c : Dev nD,
      r.2.mem ((c : Thread nD τ).loc main_v31_0) = normOut m c
      ∧ r.2.mem ((c : Thread nD τ).loc main_v31_1) = occOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.Arrays

end
-- ==== Proof.RefTerms.lean ====
/-
  The reference program's values as named terms of its arguments, generic in the float instance.

  The first group is the pooling both programs share: tokens equal to the boundary id `0` separate segments; a
  segment starts at a non-boundary token that is first in its row or follows a boundary; a running count of starts
  along the row numbers the segments; each non-boundary token's row is added into slot `row * 8192 + segment` of
  131073 slots and each boundary token's into the last, which is dropped; the counts are the same scatter of ones.
  The second group is what the reference alone computes from the pooled sums `S` and counts `C`: the occupancy,
  the pooled mean, its projection by `W` and `B`, and the normalisation of the projection's last axis.
-/
import proofs.«170537_j13529146983189_1_alg».proof.Proof.Gen.ReferenceIdeal

noncomputable section

namespace Cert.ReferenceIdeal.Terms

open Cert.ReferenceIdeal Cert.ReferenceIdeal.Gen Idealize.ShloMosaic Idealize.ShloMosaic.TcCoe Idealize.SL.Sem

variable {F : FTy → Type} [FloatOps F]

/-! ## The pooling -/

/-- One where the token is the boundary id `0`. -/
def isBoundary (ids : IVec S16x8192 32) : IVec S16x8192 1 :=
  cmpi .eq ids (broadcastInDim S16x8192 ![] bcast_S_S16x8192 (constantI S_ 32 0#32))

/-- One where a segment starts: a non-boundary token whose predecessor in the row is a boundary, the row's first
    token taken to follow one. -/
def segStart (ids : IVec S16x8192 32) : IVec S16x8192 32 :=
  extui 32 (andi (noti (isBoundary ids))
    (concatenate S16x8192 1 [⟨S16x1, broadcastInDim S16x1 ![] bcast_S_S16x1 (constantI S_ 1 1#1)⟩,
      ⟨S16x8191, extractStridedSlice S16x8191 ![0, 0] (isBoundary ids) slices_S16x8192_S16x8191_0_0⟩]
      concatenates_S16x1_S16x8191_S16x8192_d1)) natLt_1_32

/-- The number of segment starts up to and including each token, along its row. -/
def segRank (ids : IVec S16x8192 32) : IVec S16x8192 32 :=
  Host.reduceWindow IntOp.addi ![1, 8192] ![1, 1] ![0, 8191] ![0, 0] (segStart ids)
    (broadcastInDim S_ ![] bcast_S_S_ (constantI S_ 32 0#32))
    reduceWindows_S16x8192_S16x8192_w1s1p0_0_w8192s1p8191_0 h_S_

/-- Each token's slot among the `16 * 8192` segment slots: its segment's number in the row plus `8192` times the row. -/
def segSlot (ids : IVec S16x8192 32) : IVec S16x8192 32 :=
  addi (subi (segRank ids) (broadcastInDim S16x8192 ![] bcast_S_S16x8192 (constantI S_ 32 1#32)))
    (broadcastInDim S16x8192 ![0, 1] bcast_S16x1_S16x8192_0_1
      (muli (broadcastInDim S16x1 ![0] bcast_S16_S16x1_0 (iotaInDim S16 32 0))
        (broadcastInDim S16x1 ![] bcast_S_S16x1 (constantI S_ 32 8192#32))))

/-- The slot each token is added into, as one flat vector: its segment's slot, a boundary token's the extra last one. -/
def flatSlot (ids : IVec S16x8192 32) : IVec S131072 32 :=
  shapeCast S131072
    (select (noti (isBoundary ids)) (segSlot ids)
      (broadcastInDim S16x8192 ![] bcast_S_S16x8192 (id (constantI S_ 32 131072#32))))
    shapeCasts_S16x8192_S131072

/-- The segment sums: every token's row of `x` added into its slot, the extra slot dropped. -/
def segSums (x : FVec F S16x8192x256 .f32) (ids : IVec S16x8192 32) : FVec F S16x8192x256 .f32 :=
  shapeCast S16x8192x256
    (extractStridedSlice S131072x256 ![0, 0]
      (Host.scatterAdd scatter_S131073x256_S131072x1_S131072x256_1_0_0_1
        (broadcastInDim S131073x256 ![] bcast_S_S131073x256 (constant S_ .f32 0x00000000#32))
        (broadcastInDim S131072x1 ![0] bcast_S131072_S131072x1_0 (flatSlot ids))
        (shapeCast S131072x256 x shapeCasts_S16x8192x256_S131072x256))
      slices_S131073x256_S131072x256_0_0)
    shapeCasts_S131072x256_S16x8192x256

/-- The segment counts: a one added into each token's slot, the extra slot dropped. -/
def segCounts (ids : IVec S16x8192 32) : FVec F S16x8192 .f32 :=
  shapeCast S16x8192
    (extractStridedSlice S131072 ![0]
      (Host.scatterAdd scatter_S131073_S131072x1_S131072_n_0_0_1
        (broadcastInDim S131073 ![] bcast_S_S131073 (constant S_ .f32 0x00000000#32))
        (broadcastInDim S131072x1 ![0] bcast_S131072_S131072x1_0 (flatSlot ids))
        (broadcastInDim S131072 ![] bcast_S_S131072 (constant S_ .f32 0x3F800000#32)))
      slices_S131073_S131072_0)
    shapeCasts_S131072_S16x8192

/-! ## What the reference computes from the sums and the counts -/

/-- One where the count is positive, as a float. -/
def occupancy (C : FVec F S16x8192 .f32) : FVec F S16x8192 .f32 :=
  uitofp .f32 (cmpf .ogt C (broadcastInDim S16x8192 ![] bcast_S_S16x8192 (constant S_ .f32 0x00000000#32)))

/-- The pooled mean: the sums over the counts, a count below one read as one. -/
def pooledMean (S : FVec F S16x8192x256 .f32) (C : FVec F S16x8192 .f32) : FVec F S16x8192x256 .f32 :=
  Host.divf S
    (broadcastInDim S16x8192x256 ![0, 1, 2] bcast_S16x8192x1_S16x8192x256_0_1_2
      (broadcastInDim S16x8192x1 ![0, 1] bcast_S16x8192_S16x8192x1_0_1
        (maximumf C (broadcastInDim S16x8192 ![] bcast_S_S16x8192 (constant S_ .f32 0x3F800000#32)))))

/-- The projection: the pooled mean contracted with `W` over `W`'s second axis, plus the bias. -/
def projected (S : FVec F S16x8192x256 .f32) (C : FVec F S16x8192 .f32) (W : FVec F S256x256 .f32) (B : FVec F S256 .f32) :
    FVec F S16x8192x256 .f32 :=
  addf (Host.dotGeneral dot_S16x8192x256_S256x256_S16x8192x256_2_1_01_0_n_n none (pooledMean S C) W)
    (broadcastInDim S16x8192x256 ![0, 1, 2] bcast_S1x1x256_S16x8192x256_0_1_2
      (broadcastInDim S1x1x256 ![2] bcast_S256_S1x1x256_2 B))

/-- The mean over the last axis, kept as an axis of extent one. -/
def rowMean (P : FVec F S16x8192x256 .f32) : FVec F S16x8192x1 .f32 :=
  Host.divf
    (broadcastInDim S16x8192x1 ![0, 1] bcast_S16x8192_S16x8192x1_0_1
      (Host.reduceAdd P (constant S_ .f32 0x00000000#32) reducesTo_S16x8192x256_S16x8192_d2 h_S_))
    (broadcastInDim S16x8192x1 ![] bcast_S_S16x8192x1 (constant S_ .f32 0x43800000#32))

/-- The values less their row's mean. -/
def centred (P : FVec F S16x8192x256 .f32) : FVec F S16x8192x256 .f32 :=
  subf P (broadcastInDim S16x8192x256 ![0, 1, 2] bcast_S16x8192x1_S16x8192x256_0_1_2 (rowMean P))

/-- The mean of the squared deviations over the last axis. -/
def rowVar (P : FVec F S16x8192x256 .f32) : FVec F S16x8192x1 .f32 :=
  Host.divf
    (broadcastInDim S16x8192x1 ![0, 1] bcast_S16x8192_S16x8192x1_0_1
      (Host.reduceAdd (mulf (centred P) (centred P)) (constant S_ .f32 0x00000000#32) reducesTo_S16x8192x256_S16x8192_d2 h_S_))
    (broadcastInDim S16x8192x1 ![] bcast_S_S16x8192x1 (constant S_ .f32 0x43800000#32))

/-- The normalisation of the last axis with scale `G` and shift `Be`. -/
def normalized (P : FVec F S16x8192x256 .f32) (G Be : FVec F S256 .f32) : FVec F S16x8192x256 .f32 :=
  addf
    (mulf
      (mulf (centred P)
        (broadcastInDim S16x8192x256 ![0, 1, 2] bcast_S16x8192x1_S16x8192x256_0_1_2
          (Host.rsqrt (addf (rowVar P) (broadcastInDim S16x8192x1 ![] bcast_S_S16x8192x1 (constant S_ .f32 0x3727C5AC#32))))))
      (broadcastInDim S16x8192x256 ![0, 1, 2] bcast_S1x1x256_S16x8192x256_0_1_2
        (broadcastInDim S1x1x256 ![2] bcast_S256_S1x1x256_2 G)))
    (broadcastInDim S16x8192x256 ![0, 1, 2] bcast_S1x1x256_S16x8192x256_0_1_2
      (broadcastInDim S1x1x256 ![2] bcast_S256_S1x1x256_2 Be))

end Cert.ReferenceIdeal.Terms

end
-- ==== Proof.Pooling.lean ====
/-
  The arrays the kernel's region finds: the pooled segment sums and counts. The host operations that precede the
  region are the pooling both programs share, so the arrays are the same named terms of the launch contents of
  the token rows and the token ids as the reference's.
-/
import proofs.«170537_j13529146983189_1_alg».proof.Proof.Gen.KernelIdeal.Frame
import proofs.«170537_j13529146983189_1_alg».proof.Proof.RefTerms
import Idealize.ShloMosaic.Lib.StableHlo.Run

noncomputable section

namespace Cert.KernelIdeal.Pooling

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.scatterAdd Host.reduceWindow in
/-- The sums window's array at region entry is the segment sums of the launched rows and ids. -/
theorem V_sums (c : Dev nD) :
    (V m c main_v29 : FVec F S16x8192x256 .f32)
      = Cert.ReferenceIdeal.Terms.segSums (m ((c : Thread nD τ).loc main_arg0)) (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results_simp
  repeat (first
    | rw [nullary_result] | rw [unary_result] | rw [binary_result]
    | (rw [nullary_result_ne]; rotate_left; decide)
    | (rw [unary_result_ne]; rotate_left; decide)
    | (rw [binary_result_ne]; rotate_left; decide))
  simp only [cast_eq]
  unfold Cert.ReferenceIdeal.Terms.segSums Cert.ReferenceIdeal.Terms.flatSlot Cert.ReferenceIdeal.Terms.segSlot
    Cert.ReferenceIdeal.Terms.segRank Cert.ReferenceIdeal.Terms.segStart Cert.ReferenceIdeal.Terms.isBoundary
  rfl

attribute [local irreducible] Host.scatterAdd Host.reduceWindow in
/-- The counts window's array at region entry is the segment counts of the launched ids. -/
theorem V_counts (c : Dev nD) :
    (V m c main_v30 : FVec F S16x8192 .f32)
      = Cert.ReferenceIdeal.Terms.segCounts (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results_simp
  repeat (first
    | rw [nullary_result] | rw [unary_result] | rw [binary_result]
    | (rw [nullary_result_ne]; rotate_left; decide)
    | (rw [unary_result_ne]; rotate_left; decide)
    | (rw [binary_result_ne]; rotate_left; decide))
  simp only [cast_eq]
  unfold Cert.ReferenceIdeal.Terms.segCounts Cert.ReferenceIdeal.Terms.flatSlot Cert.ReferenceIdeal.Terms.segSlot
    Cert.ReferenceIdeal.Terms.segRank Cert.ReferenceIdeal.Terms.segStart Cert.ReferenceIdeal.Terms.isBoundary
  rfl

end Cert.KernelIdeal.Pooling

end
-- ==== Proof.RefRun.lean ====
/-
  The reference program's run, read back as values.

  The reference's `@main` is a straight line of host operations: it calls two small module-local functions (the
  running count along a row, and a select against a broadcast scalar), and with their bodies put at their call
  sites the line has 86 operations, listed here in order as `ops`. Each operation writes one buffer with a pure
  function of the buffers it reads, so running the line from launch contents `m` leaves every buffer at the
  fold of those functions over `m`.

  `run` says: every weakly fair execution of `@main` terminates; the first result buffer then holds the
  normalised projection of the pooled means, and the second the occupancy, both as the named terms of
  `Terms` applied to the six arguments' launch contents; and the six arguments are unchanged.
-/
import proofs.«170537_j13529146983189_1_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- `@main`'s 86 operations, in order: its own 80, the three of the running count (a zero, its broadcast to a
    scalar, the windowed sum along the row) where the count is called, and the three of the select (the scalar
    converted to its own type, its broadcast, the select) where that is called. -/
abbrev ops : List (HloOp τ sig (Elt F)) :=
  [ nullary main_c (constantI S_ 32 0#32),
    unary main_c main_v0 (broadcastInDim S16x8192 ![] bcast_S_S16x8192 : (⟨S_, .i32⟩ : BufTy).Contents (Elt F) → (⟨S16x8192, .i32⟩ : BufTy).Contents (Elt F)),
    binary main_arg1 main_v0 main_v1 (cmpi .eq : (⟨S16x8192, .i32⟩ : BufTy).Contents (Elt F) → (⟨S16x8192, .i32⟩ : BufTy).Contents (Elt F) → (⟨S16x8192, .i1⟩ : BufTy).Contents (Elt F)),
    unary main_v1 main_v2 (noti : (⟨S16x8192, .i1⟩ : BufTy).Contents (Elt F) → (⟨S16x8192, .i1⟩ : BufTy).Contents (Elt F)),
    nullary main_c_0 (constantI S_ 1 1#1),
    unary main_c_0 main_v3 (broadcastInDim S16x1 ![] bcast_S_S16x1 : (⟨S_, .i1⟩ : BufTy).Contents (Elt F) → (⟨S16x1, .i1⟩ : BufTy).Contents (Elt F)),
    unary main_v1 main_v4 ((extractStridedSlice S16x8191 ![0, 0] · slices_S16x8192_S16x8191_0_0) : (⟨S16x8192, .i1⟩ : BufTy).Contents (Elt F) → (⟨S16x8191, .i1⟩ : BufTy).Contents (Elt F)),
    binary main_v3 main_v4 main_v5 ((fun a b => concatenate S16x8192 1 [⟨S16x1, a⟩, ⟨S16x8191, b⟩] concatenates_S16x1_S16x8191_S16x8192_d1) : (⟨S16x1, .i1⟩ : BufTy).Contents (Elt F) → (⟨S16x8191, .i1⟩ : BufTy).Contents (Elt F) → (⟨S16x8192, .i1⟩ : BufTy).Contents (Elt F)),
    binary main_v2 main_v5 main_v6 (andi : (⟨S16x8192, .i1⟩ : BufTy).Contents (Elt F) → (⟨S16x8192, .i1⟩ : BufTy).Contents (Elt F) → (⟨S16x8192, .i1⟩ : BufTy).Contents (Elt F)),
    unary main_v6 main_v7 ((extui 32 · natLt_1_32) : (⟨S16x8192, .i1⟩ : BufTy).Contents (Elt F) → (⟨S16x8192, .i32⟩ : BufTy).Contents (Elt F)),
    TRef.nullary (.of main_call0_call0_c : TRef sig ⟨S_, .i32⟩) (constantI S_ 32 0#32),
    TRef.unary (.of main_call0_call0_c : TRef sig ⟨S_, .i32⟩) (.of main_call0_call0_v0 : TRef sig ⟨S_, .i32⟩) (broadcastInDim S_ ![] bcast_S_S_),
    TRef.binary (.of main_v7 : TRef sig ⟨S16x8192, .i32⟩) (.of main_call0_call0_v0 : TRef sig ⟨S_, .i32⟩) (.of main_v8 : TRef sig ⟨S16x8192, .i32⟩) (fun x v => Host.reduceWindow IntOp.addi ![1, 8192] ![1, 1] ![0, 8191] ![0, 0] x v reduceWindows_S16x8192_S16x8192_w1s1p0_0_w8192s1p8191_0 h_S_),
    nullary main_c_1 (constantI S_ 32 1#32),
    unary main_c_1 main_v9 (broadcastInDim S16x8192 ![] bcast_S_S16x8192 : (⟨S_, .i32⟩ : BufTy).Contents (Elt F) → (⟨S16x8192, .i32⟩ : BufTy).Contents (Elt F)),
    binary main_v8 main_v9 main_v10 (subi : (⟨S16x8192, .i32⟩ : BufTy).Contents (Elt F) → (⟨S16x8192, .i32⟩ : BufTy).Contents (Elt F) → (⟨S16x8192, .i32⟩ : BufTy).Contents (Elt F)),
    nullary main_v11 (iotaInDim S16 32 0),
    unary main_v11 main_v12 (broadcastInDim S16x1 ![0] bcast_S16_S16x1_0 : (⟨S16, .i32⟩ : BufTy).Contents (Elt F) → (⟨S16x1, .i32⟩ : BufTy).Contents (Elt F)),
    nullary main_c_2 (constantI S_ 32 8192#32),
    unary main_c_2 main_v13 (broadcastInDim S16x1 ![] bcast_S_S16x1 : (⟨S_, .i32⟩ : BufTy).Contents (Elt F) → (⟨S16x1, .i32⟩ : BufTy).Contents (Elt F)),
    binary main_v12 main_v13 main_v14 (muli : (⟨S16x1, .i32⟩ : BufTy).Contents (Elt F) → (⟨S16x1, .i32⟩ : BufTy).Contents (Elt F) → (⟨S16x1, .i32⟩ : BufTy).Contents (Elt F)),
    unary main_v14 main_v15 (broadcastInDim S16x8192 ![0, 1] bcast_S16x1_S16x8192_0_1 : (⟨S16x1, .i32⟩ : BufTy).Contents (Elt F) → (⟨S16x8192, .i32⟩ : BufTy).Contents (Elt F)),
    binary main_v10 main_v15 main_v16 (addi : (⟨S16x8192, .i32⟩ : BufTy).Contents (Elt F) → (⟨S16x8192, .i32⟩ : BufTy).Contents (Elt F) → (⟨S16x8192, .i32⟩ : BufTy).Contents (Elt F)),
    nullary main_c_3 (constantI S_ 32 131072#32),
    TRef.unary (.of main_c_3 : TRef sig ⟨S_, .i32⟩) (.of main_call1_v0 : TRef sig ⟨S_, .i32⟩) id,
    TRef.unary (.of main_call1_v0 : TRef sig ⟨S_, .i32⟩) (.of main_call1_v1 : TRef sig ⟨S16x8192, .i32⟩) (broadcastInDim S16x8192 ![] bcast_S_S16x8192),
    TRef.ternary (.of main_v2 : TRef sig ⟨S16x8192, .i1⟩) (.of main_v16 : TRef sig ⟨S16x8192, .i32⟩) (.of main_call1_v1 : TRef sig ⟨S16x8192, .i32⟩) (.of main_v17 : TRef sig ⟨S16x8192, .i32⟩) select,
    reshape main_v17 main_v18 rfl shapeCasts_S16x8192_S131072,
    reshape main_arg0 main_v19 rfl shapeCasts_S16x8192x256_S131072x256,
    nullary main_cst (constant S_ .f32 0x00000000#32),
    unary main_cst main_v20 (broadcastInDim S131073x256 ![] bcast_S_S131073x256 : (⟨S_, .f32⟩ : BufTy).Contents (Elt F) → (⟨S131073x256, .f32⟩ : BufTy).Contents (Elt F)),
    unary main_v18 main_v21 (broadcastInDim S131072x1 ![0] bcast_S131072_S131072x1_0 : (⟨S131072, .i32⟩ : BufTy).Contents (Elt F) → (⟨S131072x1, .i32⟩ : BufTy).Contents (Elt F)),
    ternary main_v20 main_v21 main_v19 main_v22 ((fun x i u => Host.scatterAdd scatter_S131073x256_S131072x1_S131072x256_1_0_0_1 x i u) : (⟨S131073x256, .f32⟩ : BufTy).Contents (Elt F) → (⟨S131072x1, .i32⟩ : BufTy).Contents (Elt F) → (⟨S131072x256, .f32⟩ : BufTy).Contents (Elt F) → (⟨S131073x256, .f32⟩ : BufTy).Contents (Elt F)),
    unary main_v22 main_v23 ((extractStridedSlice S131072x256 ![0, 0] · slices_S131073x256_S131072x256_0_0) : (⟨S131073x256, .f32⟩ : BufTy).Contents (Elt F) → (⟨S131072x256, .f32⟩ : BufTy).Contents (Elt F)),
    nullary main_cst_4 (constant S_ .f32 0x3F800000#32),
    unary main_cst_4 main_v24 (broadcastInDim S131072 ![] bcast_S_S131072 : (⟨S_, .f32⟩ : BufTy).Contents (Elt F) → (⟨S131072, .f32⟩ : BufTy).Contents (Elt F)),
    nullary main_cst_5 (constant S_ .f32 0x00000000#32),
    unary main_cst_5 main_v25 (broadcastInDim S131073 ![] bcast_S_S131073 : (⟨S_, .f32⟩ : BufTy).Contents (Elt F) → (⟨S131073, .f32⟩ : BufTy).Contents (Elt F)),
    unary main_v18 main_v26 (broadcastInDim S131072x1 ![0] bcast_S131072_S131072x1_0 : (⟨S131072, .i32⟩ : BufTy).Contents (Elt F) → (⟨S131072x1, .i32⟩ : BufTy).Contents (Elt F)),
    ternary main_v25 main_v26 main_v24 main_v27 ((fun x i u => Host.scatterAdd scatter_S131073_S131072x1_S131072_n_0_0_1 x i u) : (⟨S131073, .f32⟩ : BufTy).Contents (Elt F) → (⟨S131072x1, .i32⟩ : BufTy).Contents (Elt F) → (⟨S131072, .f32⟩ : BufTy).Contents (Elt F) → (⟨S131073, .f32⟩ : BufTy).Contents (Elt F)),
    unary main_v27 main_v28 ((extractStridedSlice S131072 ![0] · slices_S131073_S131072_0) : (⟨S131073, .f32⟩ : BufTy).Contents (Elt F) → (⟨S131072, .f32⟩ : BufTy).Contents (Elt F)),
    reshape main_v23 main_v29 rfl shapeCasts_S131072x256_S16x8192x256,
    reshape main_v28 main_v30 rfl shapeCasts_S131072_S16x8192,
    nullary main_cst_6 (constant S_ .f32 0x00000000#32),
    unary main_cst_6 main_v31 (broadcastInDim S16x8192 ![] bcast_S_S16x8192 : (⟨S_, .f32⟩ : BufTy).Contents (Elt F) → (⟨S16x8192, .f32⟩ : BufTy).Contents (Elt F)),
    binary main_v30 main_v31 main_v32 (cmpf .ogt : (⟨S16x8192, .f32⟩ : BufTy).Contents (Elt F) → (⟨S16x8192, .f32⟩ : BufTy).Contents (Elt F) → (⟨S16x8192, .i1⟩ : BufTy).Contents (Elt F)),
    unary main_v32 main_v33 (uitofp .f32 : (⟨S16x8192, .i1⟩ : BufTy).Contents (Elt F) → (⟨S16x8192, .f32⟩ : BufTy).Contents (Elt F)),
    nullary main_cst_7 (constant S_ .f32 0x3F800000#32),
    unary main_cst_7 main_v34 (broadcastInDim S16x8192 ![] bcast_S_S16x8192 : (⟨S_, .f32⟩ : BufTy).Contents (Elt F) → (⟨S16x8192, .f32⟩ : BufTy).Contents (Elt F)),
    binary main_v30 main_v34 main_v35 (maximumf : (⟨S16x8192, .f32⟩ : BufTy).Contents (Elt F) → (⟨S16x8192, .f32⟩ : BufTy).Contents (Elt F) → (⟨S16x8192, .f32⟩ : BufTy).Contents (Elt F)),
    unary main_v35 main_v36 (broadcastInDim S16x8192x1 ![0, 1] bcast_S16x8192_S16x8192x1_0_1 : (⟨S16x8192, .f32⟩ : BufTy).Contents (Elt F) → (⟨S16x8192x1, .f32⟩ : BufTy).Contents (Elt F)),
    unary main_v36 main_v37 (broadcastInDim S16x8192x256 ![0, 1, 2] bcast_S16x8192x1_S16x8192x256_0_1_2 : (⟨S16x8192x1, .f32⟩ : BufTy).Contents (Elt F) → (⟨S16x8192x256, .f32⟩ : BufTy).Contents (Elt F)),
    binary main_v29 main_v37 main_v38 (Host.divf : (⟨S16x8192x256, .f32⟩ : BufTy).Contents (Elt F) → (⟨S16x8192x256, .f32⟩ : BufTy).Contents (Elt F) → (⟨S16x8192x256, .f32⟩ : BufTy).Contents (Elt F)),
    binary main_v38 main_arg2 main_v39 ((fun l r => Host.dotGeneral dot_S16x8192x256_S256x256_S16x8192x256_2_1_01_0_n_n none l r) : (⟨S16x8192x256, .f32⟩ : BufTy).Contents (Elt F) → (⟨S256x256, .f32⟩ : BufTy).Contents (Elt F) → (⟨S16x8192x256, .f32⟩ : BufTy).Contents (Elt F)),
    unary main_arg3 main_v40 (broadcastInDim S1x1x256 ![2] bcast_S256_S1x1x256_2 : (⟨S256, .f32⟩ : BufTy).Contents (Elt F) → (⟨S1x1x256, .f32⟩ : BufTy).Contents (Elt F)),
    unary main_v40 main_v41 (broadcastInDim S16x8192x256 ![0, 1, 2] bcast_S1x1x256_S16x8192x256_0_1_2 : (⟨S1x1x256, .f32⟩ : BufTy).Contents (Elt F) → (⟨S16x8192x256, .f32⟩ : BufTy).Contents (Elt F)),
    binary main_v39 main_v41 main_v42 (addf : (⟨S16x8192x256, .f32⟩ : BufTy).Contents (Elt F) → (⟨S16x8192x256, .f32⟩ : BufTy).Contents (Elt F) → (⟨S16x8192x256, .f32⟩ : BufTy).Contents (Elt F)),
    nullary main_cst_8 (constant S_ .f32 0x00000000#32),
    binary main_v42 main_cst_8 main_v43 ((fun x v => Host.reduceAdd x v reducesTo_S16x8192x256_S16x8192_d2 h_S_) : (⟨S16x8192x256, .f32⟩ : BufTy).Contents (Elt F) → (⟨S_, .f32⟩ : BufTy).Contents (Elt F) → (⟨S16x8192, .f32⟩ : BufTy).Contents (Elt F)),
    unary main_v43 main_v44 (broadcastInDim S16x8192x1 ![0, 1] bcast_S16x8192_S16x8192x1_0_1 : (⟨S16x8192, .f32⟩ : BufTy).Contents (Elt F) → (⟨S16x8192x1, .f32⟩ : BufTy).Contents (Elt F)),
    nullary main_cst_9 (constant S_ .f32 0x43800000#32),
    unary main_cst_9 main_v45 (broadcastInDim S16x8192x1 ![] bcast_S_S16x8192x1 : (⟨S_, .f32⟩ : BufTy).Contents (Elt F) → (⟨S16x8192x1, .f32⟩ : BufTy).Contents (Elt F)),
    binary main_v44 main_v45 main_v46 (Host.divf : (⟨S16x8192x1, .f32⟩ : BufTy).Contents (Elt F) → (⟨S16x8192x1, .f32⟩ : BufTy).Contents (Elt F) → (⟨S16x8192x1, .f32⟩ : BufTy).Contents (Elt F)),
    unary main_v46 main_v47 (broadcastInDim S16x8192x256 ![0, 1, 2] bcast_S16x8192x1_S16x8192x256_0_1_2 : (⟨S16x8192x1, .f32⟩ : BufTy).Contents (Elt F) → (⟨S16x8192x256, .f32⟩ : BufTy).Contents (Elt F)),
    binary main_v42 main_v47 main_v48 (subf : (⟨S16x8192x256, .f32⟩ : BufTy).Contents (Elt F) → (⟨S16x8192x256, .f32⟩ : BufTy).Contents (Elt F) → (⟨S16x8192x256, .f32⟩ : BufTy).Contents (Elt F)),
    binary main_v48 main_v48 main_v49 (mulf : (⟨S16x8192x256, .f32⟩ : BufTy).Contents (Elt F) → (⟨S16x8192x256, .f32⟩ : BufTy).Contents (Elt F) → (⟨S16x8192x256, .f32⟩ : BufTy).Contents (Elt F)),
    nullary main_cst_10 (constant S_ .f32 0x00000000#32),
    binary main_v49 main_cst_10 main_v50 ((fun x v => Host.reduceAdd x v reducesTo_S16x8192x256_S16x8192_d2 h_S_) : (⟨S16x8192x256, .f32⟩ : BufTy).Contents (Elt F) → (⟨S_, .f32⟩ : BufTy).Contents (Elt F) → (⟨S16x8192, .f32⟩ : BufTy).Contents (Elt F)),
    unary main_v50 main_v51 (broadcastInDim S16x8192x1 ![0, 1] bcast_S16x8192_S16x8192x1_0_1 : (⟨S16x8192, .f32⟩ : BufTy).Contents (Elt F) → (⟨S16x8192x1, .f32⟩ : BufTy).Contents (Elt F)),
    nullary main_cst_11 (constant S_ .f32 0x43800000#32),
    unary main_cst_11 main_v52 (broadcastInDim S16x8192x1 ![] bcast_S_S16x8192x1 : (⟨S_, .f32⟩ : BufTy).Contents (Elt F) → (⟨S16x8192x1, .f32⟩ : BufTy).Contents (Elt F)),
    binary main_v51 main_v52 main_v53 (Host.divf : (⟨S16x8192x1, .f32⟩ : BufTy).Contents (Elt F) → (⟨S16x8192x1, .f32⟩ : BufTy).Contents (Elt F) → (⟨S16x8192x1, .f32⟩ : BufTy).Contents (Elt F)),
    unary main_v46 main_v54 (broadcastInDim S16x8192x256 ![0, 1, 2] bcast_S16x8192x1_S16x8192x256_0_1_2 : (⟨S16x8192x1, .f32⟩ : BufTy).Contents (Elt F) → (⟨S16x8192x256, .f32⟩ : BufTy).Contents (Elt F)),
    binary main_v42 main_v54 main_v55 (subf : (⟨S16x8192x256, .f32⟩ : BufTy).Contents (Elt F) → (⟨S16x8192x256, .f32⟩ : BufTy).Contents (Elt F) → (⟨S16x8192x256, .f32⟩ : BufTy).Contents (Elt F)),
    nullary main_cst_12 (constant S_ .f32 0x3727C5AC#32),
    unary main_cst_12 main_v56 (broadcastInDim S16x8192x1 ![] bcast_S_S16x8192x1 : (⟨S_, .f32⟩ : BufTy).Contents (Elt F) → (⟨S16x8192x1, .f32⟩ : BufTy).Contents (Elt F)),
    binary main_v53 main_v56 main_v57 (addf : (⟨S16x8192x1, .f32⟩ : BufTy).Contents (Elt F) → (⟨S16x8192x1, .f32⟩ : BufTy).Contents (Elt F) → (⟨S16x8192x1, .f32⟩ : BufTy).Contents (Elt F)),
    unary main_v57 main_v58 (Host.rsqrt : (⟨S16x8192x1, .f32⟩ : BufTy).Contents (Elt F) → (⟨S16x8192x1, .f32⟩ : BufTy).Contents (Elt F)),
    unary main_v58 main_v59 (broadcastInDim S16x8192x256 ![0, 1, 2] bcast_S16x8192x1_S16x8192x256_0_1_2 : (⟨S16x8192x1, .f32⟩ : BufTy).Contents (Elt F) → (⟨S16x8192x256, .f32⟩ : BufTy).Contents (Elt F)),
    binary main_v55 main_v59 main_v60 (mulf : (⟨S16x8192x256, .f32⟩ : BufTy).Contents (Elt F) → (⟨S16x8192x256, .f32⟩ : BufTy).Contents (Elt F) → (⟨S16x8192x256, .f32⟩ : BufTy).Contents (Elt F)),
    unary main_arg4 main_v61 (broadcastInDim S1x1x256 ![2] bcast_S256_S1x1x256_2 : (⟨S256, .f32⟩ : BufTy).Contents (Elt F) → (⟨S1x1x256, .f32⟩ : BufTy).Contents (Elt F)),
    unary main_v61 main_v62 (broadcastInDim S16x8192x256 ![0, 1, 2] bcast_S1x1x256_S16x8192x256_0_1_2 : (⟨S1x1x256, .f32⟩ : BufTy).Contents (Elt F) → (⟨S16x8192x256, .f32⟩ : BufTy).Contents (Elt F)),
    binary main_v60 main_v62 main_v63 (mulf : (⟨S16x8192x256, .f32⟩ : BufTy).Contents (Elt F) → (⟨S16x8192x256, .f32⟩ : BufTy).Contents (Elt F) → (⟨S16x8192x256, .f32⟩ : BufTy).Contents (Elt F)),
    unary main_arg5 main_v64 (broadcastInDim S1x1x256 ![2] bcast_S256_S1x1x256_2 : (⟨S256, .f32⟩ : BufTy).Contents (Elt F) → (⟨S1x1x256, .f32⟩ : BufTy).Contents (Elt F)),
    unary main_v64 main_v65 (broadcastInDim S16x8192x256 ![0, 1, 2] bcast_S1x1x256_S16x8192x256_0_1_2 : (⟨S1x1x256, .f32⟩ : BufTy).Contents (Elt F) → (⟨S16x8192x256, .f32⟩ : BufTy).Contents (Elt F)),
    binary main_v63 main_v65 main_v66 (addf : (⟨S16x8192x256, .f32⟩ : BufTy).Contents (Elt F) → (⟨S16x8192x256, .f32⟩ : BufTy).Contents (Elt F) → (⟨S16x8192x256, .f32⟩ : BufTy).Contents (Elt F)) ]

set_option maxRecDepth 4096 in
set_option maxHeartbeats 4000000 in
/-- `@main` is that line: its two windows and the two functions' bodies unfolded at their calls, both sides are one
    chain of operation steps once the sequencing is reassociated. -/
theorem main_eq (c : Dev nD) : main (F := F) c = seq ops := by
  simp only [main, main_part0, main_part1, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., nullary_bufs_sub .., unary_bufs_sub .., binary_bufs_sub .., unary_bufs_sub .., binary_bufs_sub .., nullary_bufs_sub .., unary_bufs_sub .., unary_bufs_sub .., ternary_bufs_sub .., reshape_bufs_sub .., reshape_bufs_sub .., nullary_bufs_sub .., unary_bufs_sub .., unary_bufs_sub .., ternary_bufs_sub .., unary_bufs_sub .., nullary_bufs_sub .., unary_bufs_sub .., nullary_bufs_sub .., unary_bufs_sub .., unary_bufs_sub .., ternary_bufs_sub .., unary_bufs_sub .., reshape_bufs_sub .., reshape_bufs_sub .., nullary_bufs_sub .., unary_bufs_sub .., binary_bufs_sub .., unary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

attribute [local irreducible] Host.scatterAdd Host.reduceWindow Host.reduceAdd in
set_option maxRecDepth 8192 in
set_option maxHeartbeats 4000000 in
/-- The first result. The fold is unrolled and each operation's result read at its own buffer is its function's
    value, at any other buffer what was there; inside the concatenate's operand list the same rewriting is done
    occurrence by occurrence. What is left is the composed term of the arguments, which is `Terms.normalized …`
    with its definitions unfolded: a reshape is the cast of shapes along an equation that is `rfl`, and a typed
    reference's transport of contents is the identity at a literal reference. The scatter, the windowed sum and
    the sums over the last axis stay folded meanwhile, so the two sides are compared argument by argument. -/
theorem out_eq (V : Valuation τ sig (Elt F)) :
    after ops V (main_v66 : DevRef τ sig)
      = Terms.normalized
          (Terms.projected
            (Terms.segSums (V (main_arg0 : DevRef τ sig)) (V (main_arg1 : DevRef τ sig)))
            (Terms.segCounts (V (main_arg1 : DevRef τ sig)))
            (V (main_arg2 : DevRef τ sig)) (V (main_arg3 : DevRef τ sig)))
          (V (main_arg4 : DevRef τ sig)) (V (main_arg5 : DevRef τ sig)) := by
  after_results_simp
  repeat (first
    | rw [nullary_result] | rw [unary_result] | rw [binary_result]
    | (rw [nullary_result_ne]; rotate_left; decide)
    | (rw [unary_result_ne]; rotate_left; decide)
    | (rw [binary_result_ne]; rotate_left; decide))
  rfl

attribute [local irreducible] Host.scatterAdd Host.reduceWindow in
set_option maxRecDepth 8192 in
set_option maxHeartbeats 4000000 in
/-- The second result, the same way: the occupancy of the counts. -/
theorem occ_eq (V : Valuation τ sig (Elt F)) :
    after ops V (main_v33 : DevRef τ sig)
      = Terms.occupancy (Terms.segCounts (F := F) (V (main_arg1 : DevRef τ sig))) := by
  after_results_simp
  repeat (first
    | rw [nullary_result] | rw [unary_result] | rw [binary_result]
    | (rw [nullary_result_ne]; rotate_left; decide)
    | (rw [unary_result_ne]; rotate_left; decide)
    | (rw [binary_result_ne]; rotate_left; decide))
  rfl

/-! No operation writes an argument's buffer: each keeps its contents. -/

set_option maxHeartbeats 4000000 in
theorem arg0_eq (V : Valuation τ sig (Elt F)) : after ops V (main_arg0 : DevRef τ sig) = V (main_arg0 : DevRef τ sig) := by
  after_results_simp
set_option maxHeartbeats 4000000 in
theorem arg1_eq (V : Valuation τ sig (Elt F)) : after ops V (main_arg1 : DevRef τ sig) = V (main_arg1 : DevRef τ sig) := by
  after_results_simp
set_option maxHeartbeats 4000000 in
theorem arg2_eq (V : Valuation τ sig (Elt F)) : after ops V (main_arg2 : DevRef τ sig) = V (main_arg2 : DevRef τ sig) := by
  after_results_simp
set_option maxHeartbeats 4000000 in
theorem arg3_eq (V : Valuation τ sig (Elt F)) : after ops V (main_arg3 : DevRef τ sig) = V (main_arg3 : DevRef τ sig) := by
  after_results_simp
set_option maxHeartbeats 4000000 in
theorem arg4_eq (V : Valuation τ sig (Elt F)) : after ops V (main_arg4 : DevRef τ sig) = V (main_arg4 : DevRef τ sig) := by
  after_results_simp
set_option maxHeartbeats 4000000 in
theorem arg5_eq (V : Valuation τ sig (Elt F)) : after ops V (main_arg5 : DevRef τ sig) = V (main_arg5 : DevRef τ sig) := by
  after_results_simp

/-- On every device, for any float values, from any memory with zero counters: every weakly fair execution of
    `@main` terminates with the two results at the named terms of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = Terms.normalized
            (Terms.projected
              (Terms.segSums (m ((c.tc : Thread nD τ).loc main_arg0)) (m ((c.tc : Thread nD τ).loc main_arg1)))
              (Terms.segCounts (m ((c.tc : Thread nD τ).loc main_arg1)))
              (m ((c.tc : Thread nD τ).loc main_arg2)) (m ((c.tc : Thread nD τ).loc main_arg3)))
            (m ((c.tc : Thread nD τ).loc main_arg4)) (m ((c.tc : Thread nD τ).loc main_arg5))
      ∧ r.2.mem ((c.tc : Thread nD τ).loc main_v33)
        = Terms.occupancy (Terms.segCounts (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v66).trans (out_eq _), (h c main_v33).trans (occ_eq _),
        (h c main_arg0).trans (arg0_eq _), (h c main_arg1).trans (arg1_eq _), (h c main_arg2).trans (arg2_eq _),
        (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefAtIndex.lean ====
/-
  The reference's terms read at an index, over the extended reals.

  Each array the reference builds after the pooling is read at a position `(p, q, e)` of the 16 by 8192 by 256 result,
  one operation at a time. A broadcast reads its operand at the coordinates it keeps: the count of slot `(p, q)` for a
  column stretched over the 256 lanes, entry `e` of a vector of 256 stretched over the rows and slots, the word itself for
  a scalar. The contraction with `W` over `W`'s second axis is the sum over `d` of the operand at `(p, q, d)` times
  `W (e, d)`; the sum over the last axis from a zero initial value is the sum over `e` of the operand at `(p, q, e)`.
  Composed, the normalised projection at `(p, q, e)` is the specification's formula there, and the occupancy at a slot is
  the bit "the count is above zero" read as a number.
-/
import proofs.«170537_j13529146983189_1_alg».proof.Proof.RefTerms
import proofs.«170537_j13529146983189_1_alg».proof.Proof.PoolNorm
import Idealize.ShloMosaic.PureOps.Ideal.Laws
import Idealize.ShloMosaic.Lib.Pipeline.Value
import Idealize.ShloMosaic.Lib.IdealHost

noncomputable section

namespace Cert.ReferenceIdeal.AtIndex

open Cert.ReferenceIdeal Cert.ReferenceIdeal.Gen Idealize.ShloMosaic Idealize.ShloMosaic.TcCoe Idealize.SL.Sem
open Idealize.ShloMosaic.ValueIdx
open scoped BigOperators

/-! ## Broadcasts read at an index -/

section Layout
variable {α : Type}

/-- A scalar word broadcast to any shape reads that word everywhere. -/
theorem scalar_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- A 16 by 8192 array given a trailing axis of extent one reads, at `(p, q, 0)`, its entry `(p, q)`. -/
theorem col_apply (h : S16x8192.BroadcastsInDim S16x8192x1 ![0, 1]) (x : S16x8192.Idx → α) (p : Fin 16) (q : Fin 8192)
    (z : Fin 1) : broadcastInDim S16x8192x1 ![0, 1] h x (ix3 p q z) = x (ix2 p q) :=
  broadcastInDim_apply _ h x (ix3 p q z) (ix2 p q) fun a => match a with
    | ⟨0, _⟩ => rfl
    | ⟨1, _⟩ => rfl

/-- A column `(p, q, 0)` stretched over the 256 lanes reads the column's entry at every lane. -/
theorem lane_apply (h : S16x8192x1.BroadcastsInDim S16x8192x256 ![0, 1, 2]) (x : S16x8192x1.Idx → α) (p : Fin 16)
    (q : Fin 8192) (e : Fin 256) : broadcastInDim S16x8192x256 ![0, 1, 2] h x (ix3 p q e) = x (ix3 p q 0) :=
  broadcastInDim_apply _ h x (ix3 p q e) (ix3 p q 0) fun a => match a with
    | ⟨0, _⟩ => rfl
    | ⟨1, _⟩ => rfl
    | ⟨2, _⟩ => rfl

/-- A vector of 256 placed on the last axis and stretched over rows and slots reads its entry `e` at `(p, q, e)`. -/
theorem vec_apply (h : S256.BroadcastsInDim S1x1x256 ![2]) (h' : S1x1x256.BroadcastsInDim S16x8192x256 ![0, 1, 2])
    (x : S256.Idx → α) (p : Fin 16) (q : Fin 8192) (e : Fin 256) :
    broadcastInDim S16x8192x256 ![0, 1, 2] h' (broadcastInDim S1x1x256 ![2] h x) (ix3 p q e) = x (ix1 e) :=
  (broadcastInDim_apply _ h' _ (ix3 p q e) (ix3 0 0 e) fun a => match a with
    | ⟨0, _⟩ => rfl
    | ⟨1, _⟩ => rfl
    | ⟨2, _⟩ => rfl).trans
  (broadcastInDim_apply _ h x (ix3 0 0 e) (ix1 e) fun a => match a with
    | ⟨0, _⟩ => rfl)

end Layout

/-! ## The contraction read at an index -/

/-- The left operand's index in the contraction: its first two coordinates are the result's, its last the contracted one. -/
theorem lhs_dot_0 (j : S16x8192x256.Idx) (k : dot_S16x8192x256_S256x256_S16x8192x256_2_1_01_0_n_n.contr.Idx) :
    (dot_S16x8192x256_S256x256_S16x8192x256_2_1_01_0_n_n.lhsIdx j k 0).val = (j 0).val := rfl

theorem lhs_dot_1 (j : S16x8192x256.Idx) (k : dot_S16x8192x256_S256x256_S16x8192x256_2_1_01_0_n_n.contr.Idx) :
    (dot_S16x8192x256_S256x256_S16x8192x256_2_1_01_0_n_n.lhsIdx j k 1).val = (j 1).val := rfl

theorem lhs_dot_2 (j : S16x8192x256.Idx) (k : dot_S16x8192x256_S256x256_S16x8192x256_2_1_01_0_n_n.contr.Idx) :
    (dot_S16x8192x256_S256x256_S16x8192x256_2_1_01_0_n_n.lhsIdx j k 2).val = (k ⟨0, by decide⟩).val :=
  dot_S16x8192x256_S256x256_S16x8192x256_2_1_01_0_n_n.lhsIdx_val_of_single rfl j k

/-- The right operand's index in the contraction: its first coordinate is the result's last, its second the contracted one. -/
theorem rhs_dot_0 (j : S16x8192x256.Idx) (k : dot_S16x8192x256_S256x256_S16x8192x256_2_1_01_0_n_n.contr.Idx) :
    (dot_S16x8192x256_S256x256_S16x8192x256_2_1_01_0_n_n.rhsIdx j k 0).val = (j 2).val := rfl

theorem rhs_dot_1 (j : S16x8192x256.Idx) (k : dot_S16x8192x256_S256x256_S16x8192x256_2_1_01_0_n_n.contr.Idx) :
    (dot_S16x8192x256_S256x256_S16x8192x256_2_1_01_0_n_n.rhsIdx j k 1).val = (k ⟨0, by decide⟩).val :=
  dot_S16x8192x256_S256x256_S16x8192x256_2_1_01_0_n_n.rhsIdx_val_of_single rfl j k

/-- The contraction at `(p, q, e)`: the sum over `d` of the left operand at `(p, q, d)` times the right at `(e, d)`. -/
theorem dot_apply (X : FVec Ideal S16x8192x256 .f32) (W : FVec Ideal S256x256 .f32) (p : Fin 16) (q : Fin 8192)
    (e : Fin 256) :
    Host.dotGeneral dot_S16x8192x256_S256x256_S16x8192x256_2_1_01_0_n_n none X W (ix3 p q e)
      = ∑ d : Fin 256, X (ix3 p q d) * W (ix2 e d) := by
  show FloatOps.dotGeneral _ none _ X W (ix3 p q e) = _
  rw [Ideal.dotGeneral_apply,
    ← Equiv.sum_comp (contrEquiv1 dot_S16x8192x256_S256x256_S16x8192x256_2_1_01_0_n_n 256 rfl rfl).symm]
  refine Finset.sum_congr rfl fun d _ => ?_
  have hk := contrEquiv1_symm_val dot_S16x8192x256_S256x256_S16x8192x256_2_1_01_0_n_n 256 rfl rfl d
  have hl : dot_S16x8192x256_S256x256_S16x8192x256_2_1_01_0_n_n.lhsIdx (ix3 p q e)
      ((contrEquiv1 dot_S16x8192x256_S256x256_S16x8192x256_2_1_01_0_n_n 256 rfl rfl).symm d) = ix3 p q d := by
    funext a; apply Fin.ext
    match a with
    | ⟨0, _⟩ => exact lhs_dot_0 _ _
    | ⟨1, _⟩ => exact lhs_dot_1 _ _
    | ⟨2, _⟩ => exact (lhs_dot_2 _ _).trans hk
  have hr : dot_S16x8192x256_S256x256_S16x8192x256_2_1_01_0_n_n.rhsIdx (ix3 p q e)
      ((contrEquiv1 dot_S16x8192x256_S256x256_S16x8192x256_2_1_01_0_n_n 256 rfl rfl).symm d) = ix2 e d := by
    funext a; apply Fin.ext
    match a with
    | ⟨0, _⟩ => exact rhs_dot_0 _ _
    | ⟨1, _⟩ => exact (rhs_dot_1 _ _).trans hk
  rw [hl, hr]

/-! ## The sum over the last axis read at an index -/

/-- The sum over the last axis from a zero initial value, at `(p, q)`: the sum over `e` of the operand at `(p, q, e)`. -/
theorem rowSum_apply (h : S16x8192x256.ReducesTo [2] S16x8192) (hu : 0 < S_.numel) (X : FVec Ideal S16x8192x256 .f32)
    (p : Fin 16) (q : Fin 8192) :
    Host.reduceAdd (F := Ideal) X (constant (F := Ideal) S_ .f32 0x00000000#32) h hu (ix2 p q)
      = ∑ e : Fin 256, X (ix3 p q e) := by
  have hR : S16x8192x256.Reduces [2] S16x8192 := by decide
  refine (hostReduceAdd_apply X _ h hu (ix2 p q)).trans ?_
  refine (Ideal.hostReduceAdd_single h hR X _ (ix2 p q)).trans ?_
  rw [constant_apply, Ideal.ofBits_zero_f32, zero_add]
  refine Finset.sum_congr rfl fun e _ => congrArg X ?_
  funext a; apply Fin.ext
  match a with
  | ⟨0, _⟩ => rfl
  | ⟨1, _⟩ => rfl
  | ⟨2, _⟩ => rfl

/-! ## The reference's terms read at an index -/

/-- The pooled mean at `(p, q, d)`: the sum there over the slot's count, the count at least one. -/
theorem pooledMean_apply (S : FVec Ideal S16x8192x256 .f32) (C : FVec Ideal S16x8192 .f32) (p : Fin 16) (q : Fin 8192)
    (d : Fin 256) : Terms.pooledMean (F := Ideal) S C (ix3 p q d) = Cert.PoolNorm.pooled S C p q d := by
  unfold Terms.pooledMean Cert.PoolNorm.pooled
  rw [hostDivf_apply, lane_apply, col_apply, maximumf_apply, scalar_apply]

/-- The projection at `(p, q, e)`: row `e` of `W` against the slot's pooled mean, plus the bias. -/
theorem projected_apply (S : FVec Ideal S16x8192x256 .f32) (C : FVec Ideal S16x8192 .f32) (W : FVec Ideal S256x256 .f32)
    (B : FVec Ideal S256 .f32) (p : Fin 16) (q : Fin 8192) (e : Fin 256) :
    Terms.projected (F := Ideal) S C W B (ix3 p q e) = Cert.PoolNorm.proj S C W B p q e := by
  unfold Terms.projected Cert.PoolNorm.proj
  rw [addf_apply, dot_apply, vec_apply]
  exact congrArg (· + B (ix1 e)) (Finset.sum_congr rfl fun d _ => by rw [pooledMean_apply])

/-- The mean over the last axis at `(p, q, 0)`: the 256 values' sum over the word of 256. -/
theorem rowMean_apply (P : FVec Ideal S16x8192x256 .f32) (p : Fin 16) (q : Fin 8192) (z : Fin 1) :
    Terms.rowMean (F := Ideal) P (ix3 p q z) = Ideal.div (∑ e : Fin 256, P (ix3 p q e)) Cert.PoolNorm.lenW := by
  unfold Terms.rowMean
  rw [hostDivf_apply, col_apply, rowSum_apply, scalar_apply]

/-- A value less its slot's mean. -/
theorem centred_apply (P : FVec Ideal S16x8192x256 .f32) (p : Fin 16) (q : Fin 8192) (e : Fin 256) :
    Terms.centred (F := Ideal) P (ix3 p q e)
      = P (ix3 p q e) - Ideal.div (∑ e' : Fin 256, P (ix3 p q e')) Cert.PoolNorm.lenW := by
  unfold Terms.centred
  rw [subf_apply, lane_apply, rowMean_apply]

/-- The mean of the squared deviations of slot `(p, q)`. -/
theorem rowVar_apply (P : FVec Ideal S16x8192x256 .f32) (p : Fin 16) (q : Fin 8192) (z : Fin 1) :
    Terms.rowVar (F := Ideal) P (ix3 p q z)
      = Ideal.div (∑ e : Fin 256, (P (ix3 p q e) - Ideal.div (∑ e' : Fin 256, P (ix3 p q e')) Cert.PoolNorm.lenW)
          * (P (ix3 p q e) - Ideal.div (∑ e' : Fin 256, P (ix3 p q e')) Cert.PoolNorm.lenW)) Cert.PoolNorm.lenW := by
  unfold Terms.rowVar
  rw [hostDivf_apply, col_apply, rowSum_apply, scalar_apply]
  exact congrArg (Ideal.div · Cert.PoolNorm.lenW)
    (Finset.sum_congr rfl fun e _ => by rw [mulf_apply, centred_apply])

/-- The normalisation at `(p, q, e)`: the deviation times the reciprocal square root of the variance plus the small
    constant, times `G e`, plus `Be e`. -/
theorem normalized_apply (P : FVec Ideal S16x8192x256 .f32) (G Be : FVec Ideal S256 .f32) (p : Fin 16) (q : Fin 8192)
    (e : Fin 256) :
    Terms.normalized (F := Ideal) P G Be (ix3 p q e)
      = (P (ix3 p q e) - Ideal.div (∑ e' : Fin 256, P (ix3 p q e')) Cert.PoolNorm.lenW)
          * Ideal.rsqrt (Ideal.div (∑ e₁ : Fin 256,
              (P (ix3 p q e₁) - Ideal.div (∑ e' : Fin 256, P (ix3 p q e')) Cert.PoolNorm.lenW)
                * (P (ix3 p q e₁) - Ideal.div (∑ e' : Fin 256, P (ix3 p q e')) Cert.PoolNorm.lenW)) Cert.PoolNorm.lenW
              + Cert.PoolNorm.epsW)
          * G (ix1 e) + Be (ix1 e) := by
  unfold Terms.normalized
  rw [addf_apply, mulf_apply, mulf_apply, centred_apply, lane_apply, vec_apply, vec_apply]
  show _ * FloatOps.hostUnary .rsqrt (addf (Terms.rowVar (F := Ideal) P) _ (ix3 p q 0)) * _ + _ = _
  rw [Ideal.hostUnary_rsqrt_def, addf_apply, rowVar_apply, scalar_apply]

/-- The reference's normalised projection is the specification's array. -/
theorem normalized_eq (S : FVec Ideal S16x8192x256 .f32) (C : FVec Ideal S16x8192 .f32) (W : FVec Ideal S256x256 .f32)
    (B G Be : FVec Ideal S256 .f32) :
    Terms.normalized (F := Ideal) (Terms.projected S C W B) G Be = Cert.PoolNorm.normedArr S C W B G Be := by
  funext i
  obtain ⟨p, q, e, rfl⟩ : ∃ (p : Fin 16) (q : Fin 8192) (e : Fin 256), i = ix3 p q e := ⟨i 0, i 1, i 2, eq_ix3 i⟩
  rw [normalized_apply, Cert.PoolNorm.normedArr_apply]
  unfold Cert.PoolNorm.normed Cert.PoolNorm.scaled Cert.PoolNorm.var Cert.PoolNorm.dev Cert.PoolNorm.mean
  simp only [projected_apply]

/-- The reference's occupancy is the specification's: the bit "the count is above zero" as a number. -/
theorem occupancy_eq (C : FVec Ideal S16x8192 .f32) :
    Terms.occupancy (F := Ideal) C = Cert.PoolNorm.occupied C := by
  funext i
  unfold Terms.occupancy Cert.PoolNorm.occupied
  show ((((FloatOps.cmpf .ogt (C i) (broadcastInDim S16x8192 ![] bcast_S_S16x8192 (constant (F := Ideal) S_ .f32 0x00000000#32) i)).toNat : ℝ)) : EReal) = _
  rw [scalar_apply, Ideal.cmpf_def]

end Cert.ReferenceIdeal.AtIndex

end
-- ==== Proof.lean ====
/-
  The five claims. Both programs first pool the token rows into segment sums and counts by the same host
  operations; the kernel program then divides, projects and normalises the pooled sums block by block in one
  kernel, the reference does so by whole-array host operations. At the ideal instance both results are one
  function of the pooled sums and counts, index by index: the pooled mean (sum over count, an empty slot's count
  read as one), its projection by the matrix and the bias — the kernel's product into a zero accumulator and the
  reference's contraction are the same sum over the contracted coordinate, and the kernel's narrowing of the
  product's operands is the identity —, the centring and scaling of the projected values by their own mean and
  variance, and the occupancy of a slot. No law of the extended reals beyond re-indexing a sum joins the two
  sides, so the precondition is never opened. The frames of the kernel programs are the generated ones; the
  reference's is its run with the results dropped; the idealisation rewrote nothing.
-/
import proofs.«170537_j13529146983189_1_alg».proof.Defs
import proofs.«170537_j13529146983189_1_alg».proof.Proof.Gen.Kernel
import proofs.«170537_j13529146983189_1_alg».proof.Proof.Gen.Kernel.Skeleton
import proofs.«170537_j13529146983189_1_alg».proof.Proof.Gen.Kernel.Launch
import proofs.«170537_j13529146983189_1_alg».proof.Proof.Gen.Kernel.Points
import proofs.«170537_j13529146983189_1_alg».proof.Proof.Gen.Kernel.Frame
import proofs.«170537_j13529146983189_1_alg».proof.Proof.Gen.KernelIdeal
import proofs.«170537_j13529146983189_1_alg».proof.Proof.Gen.KernelIdeal.Skeleton
import proofs.«170537_j13529146983189_1_alg».proof.Proof.Gen.KernelIdeal.Launch
import proofs.«170537_j13529146983189_1_alg».proof.Proof.Gen.KernelIdeal.Points
import proofs.«170537_j13529146983189_1_alg».proof.Proof.Gen.KernelIdeal.Frame
import proofs.«170537_j13529146983189_1_alg».proof.Proof.Gen.ReferenceIdeal
import proofs.«170537_j13529146983189_1_alg».proof.Proof.Gen.Pre_finite_inputs
import proofs.«170537_j13529146983189_1_alg».proof.Proof.KernelArrays
import proofs.«170537_j13529146983189_1_alg».proof.Proof.Pooling
import proofs.«170537_j13529146983189_1_alg».proof.Proof.RefRun
import proofs.«170537_j13529146983189_1_alg».proof.Proof.RefAtIndex
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

/-- Both runs end with the output at the specification's normalised projection, and the occupancy at the
    specification's occupancy, of the pooled sums and counts of the launched rows and ids. -/
theorem algebraic : Cert.algebraic_KernelIdeal_ReferenceIdeal := by
  intro m ρ m' ρ' _ hagree
  refine ⟨fun c => Cert.PoolNorm.normedArr
      (Cert.ReferenceIdeal.Terms.segSums (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.Terms.segCounts (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.PoolNorm.occupied
      (Cert.ReferenceIdeal.Terms.segCounts (F := Ideal) (m ((c.tc : Thread Cert.KernelIdeal.nD Cert.KernelIdeal.τ).loc Cert.KernelIdeal.main_arg1))),
    ?_, ?_⟩
  · refine (θ_run Cert.KernelIdeal.defs _ _).mono (fun r h c => ⟨(h c).1.trans ?_, (h c).2.1.trans ?_, (h c).2.2⟩)
      (Cert.KernelIdeal.Arrays.run m ρ)
    · show Cert.PoolNorm.normedArr (Cert.KernelIdeal.Gen.V m c Cert.KernelIdeal.main_v29) (Cert.KernelIdeal.Gen.V m c Cert.KernelIdeal.main_v30)
        (Cert.KernelIdeal.Gen.V m c Cert.KernelIdeal.main_arg2) (Cert.KernelIdeal.Gen.V m c Cert.KernelIdeal.main_arg3)
        (Cert.KernelIdeal.Gen.V m c Cert.KernelIdeal.main_arg4) (Cert.KernelIdeal.Gen.V m c Cert.KernelIdeal.main_arg5) = _
      rw [Cert.KernelIdeal.Pooling.V_sums m c, Cert.KernelIdeal.Pooling.V_counts m c, Cert.KernelIdeal.Gen.V_main_arg2 m c,
        Cert.KernelIdeal.Gen.V_main_arg3 m c, Cert.KernelIdeal.Gen.V_main_arg4 m c, Cert.KernelIdeal.Gen.V_main_arg5 m c]
    · show Cert.PoolNorm.occupied (Cert.KernelIdeal.Gen.V m c Cert.KernelIdeal.main_v30) = _
      rw [Cert.KernelIdeal.Pooling.V_counts m c]
  · refine (θ_run Cert.ReferenceIdeal.defs _ _).mono (fun r h c => ⟨(h c).1.trans ?_, (h c).2.1.trans ?_, (h c).2.2⟩)
      (Cert.ReferenceIdeal.RefRun.run (F := Ideal) m' ρ')
    · rw [Cert.ReferenceIdeal.AtIndex.normalized_eq, (hagree c).1, (hagree c).2.1, (hagree c).2.2.1, (hagree c).2.2.2.1,
        (hagree c).2.2.2.2.1, (hagree c).2.2.2.2.2]
    · rw [Cert.ReferenceIdeal.AtIndex.occupancy_eq, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
